-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x64x64x512 : Shape := ⟨4, ![8, 64, 64, 512]⟩
abbrev S8x512 : Shape := ⟨2, ![8, 512]⟩
abbrev S8x64x64x1 : Shape := ⟨4, ![8, 64, 64, 1]⟩
abbrev S512x512 : Shape := ⟨2, ![512, 512]⟩
abbrev S1x1x1x512 : Shape := ⟨4, ![1, 1, 1, 512]⟩
abbrev S512x1024 : Shape := ⟨2, ![512, 1024]⟩
abbrev S1024 : Shape := ⟨1, ![1024]⟩
abbrev S_ : Shape := ⟨0, ![]⟩

class Facts : Prop where
  bcast_S_S8x64x64x512 : S_.BroadcastsInDim S8x64x64x512 (![] : Fin 0 → Fin S8x64x64x512.rank)
  reducesTo_S8x64x64x512_S_d0_1_2_3 : S8x64x64x512.ReducesTo [0, 1, 2, 3] S_
  h_S_ : 0 < S_.numel
  bcast_S_S8x512 : S_.BroadcastsInDim S8x512 (![] : Fin 0 → Fin S8x512.rank)
  reducesTo_S8x512_S_d0_1 : S8x512.ReducesTo [0, 1] S_
  bcast_S_S8x64x64x1 : S_.BroadcastsInDim S8x64x64x1 (![] : Fin 0 → Fin S8x64x64x1.rank)
  reducesTo_S8x64x64x1_S_d0_1_2_3 : S8x64x64x1.ReducesTo [0, 1, 2, 3] S_
  bcast_S_S512x512 : S_.BroadcastsInDim S512x512 (![] : Fin 0 → Fin S512x512.rank)
  reducesTo_S512x512_S_d0_1 : S512x512.ReducesTo [0, 1] S_
  bcast_S_S1x1x1x512 : S_.BroadcastsInDim S1x1x1x512 (![] : Fin 0 → Fin S1x1x1x512.rank)
  reducesTo_S1x1x1x512_S_d0_1_2_3 : S1x1x1x512.ReducesTo [0, 1, 2, 3] S_
  bcast_S_S512x1024 : S_.BroadcastsInDim S512x1024 (![] : Fin 0 → Fin S512x1024.rank)
  reducesTo_S512x1024_S_d0_1 : S512x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024 .f32) (main_v33 : IVec S_ 1) : IVec S_ 1 :=
  let main_v34 : FVec F S1024 .f32 := Host.absf main_arg7
  let main_cst_12 : FVec F S_ .f32 := constant S_ .f32 0x7F800000#32
  let main_v35 : FVec F S1024 .f32 := broadcastInDim S1024 ![] bcast_S_S1024 main_cst_12
  let main_v36 : IVec S1024 1 := cmpf .olt main_v34 main_v35
  let main_c_13 : IVec S_ 1 := constantI S_ 1 1#1
  let main_v37 : IVec S_ 1 := (fun x v => Host.reduce IntOp.andi x v reducesTo_S1024_S_d0 h_S_) main_v36 main_c_13
  let main_v38 : IVec S_ 1 := andi main_v33 main_v37
  main_v38

def fn_part1 {F : FTy → Type} [FloatOps F] (main_arg4 : FVec F S1x1x1x512 .f32) (main_arg5 : FVec F S1x1x1x512 .f32) (main_arg6 : FVec F S512x1024 .f32) (main_arg7 : FVec F S1024 .f32) (main_v13 : IVec S_ 1) (main_v16 : IVec S512x512 1) : IVec S_ 1 :=
  let main_c_5 : IVec S_ 1 := constantI S_ 1 1#1
  let main_v17 : IVec S_ 1 := (fun x v => Host.reduce IntOp.andi x v reducesTo_S512x512_S_d0_1 h_S_) main_v16 main_c_5
  let main_v18 : IVec S_ 1 := andi main_v13 main_v17
  let main_v19 : FVec F S1x1x1x512 .f32 := Host.absf main_arg4
  let main_cst_6 : FVec F S_ .f32 := constant S_ .f32 0x7F800000#32
  let main_v20 : FVec F S1x1x1x512 .f32 := broadcastInDim S1x1x1x512 ![] bcast_S_S1x1x1x512 main_cst_6
  let main_v21 : IVec S1x1x1x512 1 := cmpf .olt main_v19 main_v20
  let main_c_7 : IVec S_ 1 := constantI S_ 1 1#1
  let main_v22 : IVec S_ 1 := (fun x v => Host.reduce IntOp.andi x v reducesTo_S1x1x1x512_S_d0_1_2_3 h_S_) main_v21 main_c_7
  let main_v23 : IVec S_ 1 := andi main_v18 main_v22
  let main_v24 : FVec F S1x1x1x512 .f32 := Host.absf main_arg5
  let main_cst_8 : FVec F S_ .f32 := constant S_ .f32 0x7F800000#32
  let main_v25 : FVec F S1x1x1x512 .f32 := broadcastInDim S1x1x1x512 ![] bcast_S_S1x1x1x512 main_cst_8
  let main_v26 : IVec S1x1x1x512 1 := cmpf .olt main_v24 main_v25
  let main_c_9 : IVec S_ 1 := constantI S_ 1 1#1
  let main_v27 : IVec S_ 1 := (fun x v => Host.reduce IntOp.andi x v reducesTo_S1x1x1x512_S_d0_1_2_3 h_S_) main_v26 main_c_9
  let main_v28 : IVec S_ 1 := andi main_v23 main_v27
  let main_v29 : FVec F S512x1024 .f32 := Host.absf main_arg6
  let main_cst_10 : FVec F S_ .f32 := constant S_ .f32 0x7F800000#32
  let main_v30 : FVec F S512x1024 .f32 := broadcastInDim S512x1024 ![] bcast_S_S512x1024 main_cst_10
  let main_v31 : IVec S512x1024 1 := cmpf .olt main_v29 main_v30
  let main_c_11 : IVec S_ 1 := constantI S_ 1 1#1
  let main_v32 : IVec S_ 1 := (fun x v => Host.reduce IntOp.andi x v reducesTo_S512x1024_S_d0_1 h_S_) main_v31 main_c_11
  let main_v33 : IVec S_ 1 := andi main_v28 main_v32
  fn_part2 (F := F) main_arg7 main_v33

def fn {F : FTy → Type} [FloatOps F] (main_arg0 : FVec F S8x64x64x512 .f32) (main_arg1 : FVec F S8x512 .f32) (main_arg2 : FVec F S8x64x64x1 .f32) (main_arg3 : FVec F S512x512 .f32) (main_arg4 : FVec F S1x1x1x512 .f32) (main_arg5 : FVec F S1x1x1x512 .f32) (main_arg6 : FVec F S512x1024 .f32) (main_arg7 : FVec F S1024 .f32) : IVec S_ 1 :=
  let main_v0 : FVec F S8x64x64x512 .f32 := Host.absf main_arg0
  let main_cst : FVec F S_ .f32 := constant S_ .f32 0x7F800000#32
  let main_v1 : FVec F S8x64x64x512 .f32 := broadcastInDim S8x64x64x512 ![] bcast_S_S8x64x64x512 main_cst
  let main_v2 : IVec S8x64x64x512 1 := cmpf .olt main_v0 main_v1
  let main_c : IVec S_ 1 := constantI S_ 1 1#1
  let main_v3 : IVec S_ 1 := (fun x v => Host.reduce IntOp.andi x v reducesTo_S8x64x64x512_S_d0_1_2_3 h_S_) main_v2 main_c
  let main_v4 : FVec F S8x512 .f32 := Host.absf main_arg1
  let main_cst_0 : FVec F S_ .f32 := constant S_ .f32 0x7F800000#32
  let main_v5 : FVec F S8x512 .f32 := broadcastInDim S8x512 ![] bcast_S_S8x512 main_cst_0
  let main_v6 : IVec S8x512 1 := cmpf .olt main_v4 main_v5
  let main_c_1 : IVec S_ 1 := constantI S_ 1 1#1
  let main_v7 : IVec S_ 1 := (fun x v => Host.reduce IntOp.andi x v reducesTo_S8x512_S_d0_1 h_S_) main_v6 main_c_1
  let main_v8 : IVec S_ 1 := andi main_v3 main_v7
  let main_v9 : FVec F S8x64x64x1 .f32 := Host.absf main_arg2
  let main_cst_2 : FVec F S_ .f32 := constant S_ .f32 0x7F800000#32
  let main_v10 : FVec F S8x64x64x1 .f32 := broadcastInDim S8x64x64x1 ![] bcast_S_S8x64x64x1 main_cst_2
  let main_v11 : IVec S8x64x64x1 1 := cmpf .olt main_v9 main_v10
  let main_c_3 : IVec S_ 1 := constantI S_ 1 1#1
  let main_v12 : IVec S_ 1 := (fun x v => Host.reduce IntOp.andi x v reducesTo_S8x64x64x1_S_d0_1_2_3 h_S_) main_v11 main_c_3
  let main_v13 : IVec S_ 1 := andi main_v8 main_v12
  let main_v14 : FVec F S512x512 .f32 := Host.absf main_arg3
  let main_cst_4 : FVec F S_ .f32 := constant S_ .f32 0x7F800000#32
  let main_v15 : FVec F S512x512 .f32 := broadcastInDim S512x512 ![] bcast_S_S512x512 main_cst_4
  let main_v16 : IVec S512x512 1 := cmpf .olt main_v14 main_v15
  fn_part1 (F := F) main_arg4 main_arg5 main_arg6 main_arg7 main_v13 main_v16
-- ==== Kernel.lean ====
abbrev S8x64x64x512 : Shape := ⟨4, ![8, 64, 64, 512]⟩
abbrev S8x512 : Shape := ⟨2, ![8, 512]⟩
abbrev S8x64x64x1 : Shape := ⟨4, ![8, 64, 64, 1]⟩
abbrev S512x512 : Shape := ⟨2, ![512, 512]⟩
abbrev S1x1x1x512 : Shape := ⟨4, ![1, 1, 1, 512]⟩
abbrev S512x1024 : Shape := ⟨2, ![512, 1024]⟩
abbrev S1024 : Shape := ⟨1, ![1024]⟩
abbrev S1x512 : Shape := ⟨2, ![1, 512]⟩
abbrev S8x1x512 : Shape := ⟨3, ![8, 1, 512]⟩
abbrev S512 : Shape := ⟨1, ![512]⟩
abbrev S1x64x64x512 : Shape := ⟨4, ![1, 64, 64, 512]⟩
abbrev S1x64x64x1 : Shape := ⟨4, ![1, 64, 64, 1]⟩
abbrev S512x128 : Shape := ⟨2, ![512, 128]⟩
abbrev S1x128 : Shape := ⟨2, ![1, 128]⟩
abbrev S1x1x512 : Shape := ⟨3, ![1, 1, 512]⟩
abbrev S1x64x64x128 : Shape := ⟨4, ![1, 64, 64, 128]⟩
abbrev S64x64x512 : Shape := ⟨3, ![64, 64, 512]⟩
abbrev S4096x512 : Shape := ⟨2, ![4096, 512]⟩
abbrev S4096x128 : Shape := ⟨2, ![4096, 128]⟩
abbrev S64x64x128 : Shape := ⟨3, ![64, 64, 128]⟩
abbrev S64x64x1 : Shape := ⟨3, ![64, 64, 1]⟩
abbrev S1x1x128 : Shape := ⟨3, ![1, 1, 128]⟩
abbrev S64x128 : Shape := ⟨2, ![64, 128]⟩
abbrev S128 : Shape := ⟨1, ![128]⟩

abbrev nBuf : Space → Nat
  | .hbm => 18
  | .vmem => 22
  | .smem => 0
  | _ => 0

abbrev bufTy : (tb : Table) → Fin (tcTables nBuf tb) → BufTy
  | .hbm, ⟨0, _⟩ => ⟨S8x64x64x512, .f32⟩
  | .hbm, ⟨1, _⟩ => ⟨S8x512, .f32⟩
  | .hbm, ⟨2, _⟩ => ⟨S8x64x64x1, .f32⟩
  | .hbm, ⟨3, _⟩ => ⟨S512x512, .f32⟩
  | .hbm, ⟨4, _⟩ => ⟨S1x1x1x512, .f32⟩
  | .hbm, ⟨5, _⟩ => ⟨S1x1x1x512, .f32⟩
  | .hbm, ⟨6, _⟩ => ⟨S512x1024, .f32⟩
  | .hbm, ⟨7, _⟩ => ⟨S1024, .f32⟩
  | .hbm, ⟨8, _⟩ => ⟨S1x512, .f32⟩
  | .hbm, ⟨9, _⟩ => ⟨S1x512, .f32⟩
  | .hbm, ⟨10, _⟩ => ⟨S8x1x512, .f32⟩
  | .hbm, ⟨11, _⟩ => ⟨S512x512, .f32⟩
  | .hbm, ⟨12, _⟩ => ⟨S512x512, .f32⟩
  | .hbm, ⟨13, _⟩ => ⟨S512, .f32⟩
  | .hbm, ⟨14, _⟩ => ⟨S1x512, .f32⟩
  | .hbm, ⟨15, _⟩ => ⟨S512, .f32⟩
  | .hbm, ⟨16, _⟩ => ⟨S1x512, .f32⟩
  | .hbm, ⟨17, _⟩ => ⟨S8x64x64x512, .f32⟩
  | .local _ .vmem, ⟨0, _⟩ => ⟨S1x64x64x512, .f32⟩
  | .local _ .vmem, ⟨1, _⟩ => ⟨S1x64x64x512, .f32⟩
  | .local _ .vmem, ⟨2, _⟩ => ⟨S1x64x64x1, .f32⟩
  | .local _ .vmem, ⟨3, _⟩ => ⟨S1x64x64x1, .f32⟩
  | .local _ .vmem, ⟨4, _⟩ => ⟨S512x128, .f32⟩
  | .local _ .vmem, ⟨5, _⟩ => ⟨S512x128, .f32⟩
  | .local _ .vmem, ⟨6, _⟩ => ⟨S1x128, .f32⟩
  | .local _ .vmem, ⟨7, _⟩ => ⟨S1x128, .f32⟩
  | .local _ .vmem, ⟨8, _⟩ => ⟨S1x128, .f32⟩
  | .local _ .vmem, ⟨9, _⟩ => ⟨S1x128, .f32⟩
  | .local _ .vmem, ⟨10, _⟩ => ⟨S1x1x512, .f32⟩
  | .local _ .vmem, ⟨11, _⟩ => ⟨S1x1x512, .f32⟩
  | .local _ .vmem, ⟨12, _⟩ => ⟨S512x128, .f32⟩
  | .local _ .vmem, ⟨13, _⟩ => ⟨S512x128, .f32⟩
  | .local _ .vmem, ⟨14, _⟩ => ⟨S1x128, .f32⟩
  | .local _ .vmem, ⟨15, _⟩ => ⟨S1x128, .f32⟩
  | .local _ .vmem, ⟨16, _⟩ => ⟨S512x128, .f32⟩
  | .local _ .vmem, ⟨17, _⟩ => ⟨S512x128, .f32⟩
  | .local _ .vmem, ⟨18, _⟩ => ⟨S1x128, .f32⟩
  | .local _ .vmem, ⟨19, _⟩ => ⟨S1x128, .f32⟩
  | .local _ .vmem, ⟨20, _⟩ => ⟨S1x64x64x128, .f32⟩
  | .local _ .vmem, ⟨21, _⟩ => ⟨S1x64x64x128, .f32⟩
  | _, _ => ⟨S8x64x64x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![8, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat, arg1.toNat]

abbrev stage0_0 : Fin 2 → Memref sig .tc .vmem S1x64x64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x64x64x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![false, true]

abbrev stage0_9 : Fin 2 → Memref sig .tc .vmem S1x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1x64x64x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

class Facts₀ : Prop where
  shapeCasts_S1x1x1x512_S1x512 : S1x1x1x512.ShapeCasts S1x512
  shapeCasts_S8x512_S8x1x512 : S8x512.ShapeCasts S8x1x512
  slices_S512x1024_S512x512_0_0 : S512x1024.Slices ![0, 0] S512x512
  slices_S512x1024_S512x512_0_512 : S512x1024.Slices ![0, 512] S512x512
  slices_S1024_S512_0 : S1024.Slices ![0] S512
  shapeCasts_S512_S1x512 : S512.ShapeCasts S1x512
  slices_S1024_S512_512 : S1024.Slices ![512] S512
  inb_S1x64x64x512_S1x64x64x512_0_0_0_0 : ∀ a, (![0, 0, 0, 0] : Fin 4 → Nat) a + S1x64x64x512.size a ≤ S1x64x64x512.size a
  h_S1x64x64x512 : 0 < S1x64x64x512.numel
  shapeCasts_S1x64x64x512_S64x64x512 : S1x64x64x512.ShapeCasts S64x64x512
  bitsLt_bf16_f32 : FTy.bits .bf16 < FTy.bits .f32
  inb_S512x128_S512x128_0_0 : ∀ a, (![0, 0] : Fin 2 → Nat) a + S512x128.size a ≤ S512x128.size a
  h_S512x128 : 0 < S512x128.numel
  shapeCasts_S64x64x512_S4096x512 : S64x64x512.ShapeCasts S4096x512
  shapeCasts_S4096x128_S64x64x128 : S4096x128.ShapeCasts S64x64x128
  inb_S1x64x64x1_S1x64x64x1_0_0_0_0 : ∀ a, (![0, 0, 0, 0] : Fin 4 → Nat) a + S1x64x64x1.size a ≤ S1x64x64x1.size a
  h_S1x64x64x1 : 0 < S1x64x64x1.numel
  shapeCasts_S1x64x64x1_S64x64x1 : S1x64x64x1.ShapeCasts S64x64x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  shapeCasts_S1x128_S1x1x128 : S1x128.ShapeCasts S1x1x128
  broadcasts_S1x1x128_S64x64x128 : S1x1x128.Broadcasts S64x64x128
  broadcasts_S64x64x1_S64x64x128 : S64x64x1.Broadcasts S64x64x128
  reduces_S64x64x128_S64x128 : S64x64x128.Reduces [0] S64x128
  reduces_S64x128_S128 : S64x128.Reduces [0] S128
  shapeCasts_S128_S1x1x128 : S128.ShapeCasts S1x1x128
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  shapeCasts_S512x128_S512x128 : S512x128.ShapeCasts S512x128
  inb_S1x64x64x128_S1x64x64x128_0_0_0_0 : ∀ a, (![0, 0, 0, 0] : Fin 4 → Nat) a + S1x64x64x128.size a ≤ S1x64x64x128.size a
  h_S1x64x64x128 : 0 < S1x64x64x128.numel
  shapeCasts_S1x64x64x128_S64x64x128 : S1x64x64x128.ShapeCasts S64x64x128
  shapeCasts_S64x64x128_S1x64x64x128 : S64x64x128.ShapeCasts S1x64x64x128
  dot_S4096x512_S512x128_S4096x128_1_0_0_1_n_n_wf : DotDims.WF S4096x512 S512x128 S4096x128 [1] [0] [0] [1] [] []
  dot_S1x512_S512x128_S1x128_1_0_0_1_n_n_wf : DotDims.WF S1x512 S512x128 S1x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x64x512.size a ≤ S8x64x64x512.size a
  hwx0_0 : ∀ i : grid0.Coords, EltTy.bits .f32 = 32 ∨ (Rect.block (s := S8x64x64x512) S1x64x64x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x64x64x1.size a ≤ S8x64x64x1.size a
  hwx0_1 : ∀ i : grid0.Coords, EltTy.bits .f32 = 32 ∨ (Rect.block (s := S8x64x64x1) S1x64x64x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x512.size a
  hwx0_2 : ∀ i : grid0.Coords, EltTy.bits .f32 = 32 ∨ (Rect.block (s := S512x512) S512x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x512.size a
  hwx0_3 : ∀ i : grid0.Coords, EltTy.bits .f32 = 32 ∨ (Rect.block (s := S1x512) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x512.size a
  hwx0_4 : ∀ i : grid0.Coords, EltTy.bits .f32 = 32 ∨ (Rect.block (s := S1x512) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x512.size a ≤ S8x1x512.size a
  hwx0_5 : ∀ i : grid0.Coords, EltTy.bits .f32 = 32 ∨ (Rect.block (s := S8x1x512) S1x1x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x128.size a ≤ S512x512.size a
  hwx0_6 : ∀ i : grid0.Coords, EltTy.bits .f32 = 32 ∨ (Rect.block (s := S512x512) S512x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x128.size a ≤ S1x512.size a
  hwx0_7 : ∀ i : grid0.Coords, EltTy.bits .f32 = 32 ∨ (Rect.block (s := S1x512) S1x128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x128.size a ≤ S512x512.size a
  hwx0_8 : ∀ i : grid0.Coords, EltTy.bits .f32 = 32 ∨ (Rect.block (s := S512x512) S512x128.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x128.size a ≤ S1x512.size a
  hwx0_9 : ∀ i : grid0.Coords, EltTy.bits .f32 = 32 ∨ (Rect.block (s := S1x512) S1x128.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S1x64x64x128.size a ≤ S8x64x64x512.size a
  hwx0_10 : ∀ i : grid0.Coords, EltTy.bits .f32 = 32 ∨ (Rect.block (s := S8x64x64x512) S1x64x64x128.size (cc0_transform_10 i) (hinb0_10 i)).WholeWords (EltTy.packing .f32)

variable [Facts₀]

def dot_S4096x512_S512x128_S4096x128_1_0_0_1_n_n : DotDims S4096x512 S512x128 S4096x128 where
  lhsContracting := [1]
  rhsContracting := [0]
  lhsNonContracting := [0]
  rhsNonContracting := [1]
  lhsBatch := []
  rhsBatch := []
  wf := dot_S4096x512_S512x128_S4096x128_1_0_0_1_n_n_wf
def dot_S1x512_S512x128_S1x128_1_0_0_1_n_n : DotDims S1x512 S512x128 S1x128 where
  lhsContracting := [1]
  rhsContracting := [0]
  lhsNonContracting := [0]
  rhsNonContracting := [1]
  lhsBatch := []
  rhsBatch := []
  wf := dot_S1x512_S512x128_S1x128_1_0_0_1_n_n_wf

abbrev win0_0 : Pipeline.Window sig grid0 :=
  Pipeline.Window.ofSpec (Memref.whole main_arg0) S1x64x64x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1x64x64x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v2) S1x1x512.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v3) S512x128.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6) S1x128.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v4) S512x128.size cc0_transform_8 reads0_8 false false 2 stage0_8 sem0_8
    hrank0 hreads0_8 hinb0_8 nbuf0_8 (Memref.isWhole_whole _) hwx0_8 hstage0_8

abbrev win0_9 : Pipeline.Window sig grid0 :=
  Pipeline.Window.ofSpec (Memref.whole main_v8) S1x128.size cc0_transform_9 reads0_9 false false 2 stage0_9 sem0_9
    hrank0 hreads0_9 hinb0_9 nbuf0_9 (Memref.isWhole_whole _) hwx0_9 hstage0_9

abbrev win0_10 : Pipeline.Window sig grid0 :=
  Pipeline.Window.ofSpec (Memref.whole main_v9) S1x64x64x128.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

class Facts : Prop extends Facts₀ where

variable [Facts]
-- ==== ReferenceIdeal.lean ====
abbrev S8x64x64x512 : Shape := ⟨4, ![8, 64, 64, 512]⟩
abbrev S8x512 : Shape := ⟨2, ![8, 512]⟩
abbrev S8x64x64x1 : Shape := ⟨4, ![8, 64, 64, 1]⟩
abbrev S512x512 : Shape := ⟨2, ![512, 512]⟩
abbrev S1x1x1x512 : Shape := ⟨4, ![1, 1, 1, 512]⟩
abbrev S512x1024 : Shape := ⟨2, ![512, 1024]⟩
abbrev S1024 : Shape := ⟨1, ![1024]⟩
abbrev S_ : Shape := ⟨0, ![]⟩
abbrev S8x1x1x512 : Shape := ⟨4, ![8, 1, 1, 512]⟩
abbrev S8x1024 : Shape := ⟨2, ![8, 1024]⟩
abbrev S1x1024 : Shape := ⟨2, ![1, 1024]⟩
abbrev S8x2x1x1x512 : Shape := ⟨5, ![8, 2, 1, 1, 512]⟩
abbrev S8x1x1x1x512 : Shape := ⟨5, ![8, 1, 1, 1, 512]⟩

abbrev nBuf : Space → Nat
  | .hbm => 62
  | .vmem => 0
  | .smem => 0
  | _ => 0

abbrev bufTy : (tb : Table) → Fin (tcTables nBuf tb) → BufTy
  | .hbm, ⟨0, _⟩ => ⟨S8x64x64x512, .f32⟩
  | .hbm, ⟨1, _⟩ => ⟨S8x512, .f32⟩
  | .hbm, ⟨2, _⟩ => ⟨S8x64x64x1, .f32⟩
  | .hbm, ⟨3, _⟩ => ⟨S512x512, .f32⟩
  | .hbm, ⟨4, _⟩ => ⟨S1x1x1x512, .f32⟩
  | .hbm, ⟨5, _⟩ => ⟨S1x1x1x512, .f32⟩
  | .hbm, ⟨6, _⟩ => ⟨S512x1024, .f32⟩
  | .hbm, ⟨7, _⟩ => ⟨S1024, .f32⟩
  | .hbm, ⟨8, _⟩ => ⟨S8x64x64x512, .f32⟩
  | .hbm, ⟨9, _⟩ => ⟨S8x64x64x512, .f32⟩
  | .hbm, ⟨10, _⟩ => ⟨S8x64x64x512, .f32⟩
  | .hbm, ⟨11, _⟩ => ⟨S8x64x64x512, .f32⟩
  | .hbm, ⟨12, _⟩ => ⟨S8x64x64x512, .f32⟩
  | .hbm, ⟨13, _⟩ => ⟨S8x64x64x512, .f32⟩
  | .hbm, ⟨14, _⟩ => ⟨S8x64x64x512, .f32⟩
  | .hbm, ⟨15, _⟩ => ⟨S_, .f32⟩
  | .hbm, ⟨16, _⟩ => ⟨S_, .f32⟩
  | .hbm, ⟨17, _⟩ => ⟨S8x64x64x512, .f32⟩
  | .hbm, ⟨18, _⟩ => ⟨S8x64x64x512, .i1⟩
  | .hbm, ⟨19, _⟩ => ⟨S_, .f32⟩
  | .hbm, ⟨20, _⟩ => ⟨S8x64x64x512, .f32⟩
  | .hbm, ⟨21, _⟩ => ⟨S8x64x64x512, .f32⟩
  | .hbm, ⟨22, _⟩ => ⟨S8x64x64x512, .f32⟩
  | .hbm, ⟨23, _⟩ => ⟨S_, .f32⟩
  | .hbm, ⟨24, _⟩ => ⟨S8x512, .f32⟩
  | .hbm, ⟨25, _⟩ => ⟨S8x1x1x512, .f32⟩
  | .hbm, ⟨26, _⟩ => ⟨S_, .f32⟩
  | .hbm, ⟨27, _⟩ => ⟨S8x1x1x512, .f32⟩
  | .hbm, ⟨28, _⟩ => ⟨S8x1x1x512, .f32⟩
  | .hbm, ⟨29, _⟩ => ⟨S8x64x64x512, .f32⟩
  | .hbm, ⟨30, _⟩ => ⟨S8x64x64x512, .f32⟩
  | .hbm, ⟨31, _⟩ => ⟨S8x64x64x512, .f32⟩
  | .hbm, ⟨32, _⟩ => ⟨S_, .f32⟩
  | .hbm, ⟨33, _⟩ => ⟨S8x512, .f32⟩
  | .hbm, ⟨34, _⟩ => ⟨S8x1x1x512, .f32⟩
  | .hbm, ⟨35, _⟩ => ⟨S_, .f32⟩
  | .hbm, ⟨36, _⟩ => ⟨S8x1x1x512, .f32⟩
  | .hbm, ⟨37, _⟩ => ⟨S8x1x1x512, .f32⟩
  | .hbm, ⟨38, _⟩ => ⟨S8x64x64x512, .f32⟩
  | .hbm, ⟨39, _⟩ => ⟨S8x64x64x512, .f32⟩
  | .hbm, ⟨40, _⟩ => ⟨S_, .f32⟩
  | .hbm, ⟨41, _⟩ => ⟨S8x1x1x512, .f32⟩
  | .hbm, ⟨42, _⟩ => ⟨S8x1x1x512, .f32⟩
  | .hbm, ⟨43, _⟩ => ⟨S8x1x1x512, .f32⟩
  | .hbm, ⟨44, _⟩ => ⟨S8x64x64x512, .f32⟩
  | .hbm, ⟨45, _⟩ => ⟨S8x64x64x512, .f32⟩
  | .hbm, ⟨46, _⟩ => ⟨S8x1024, .f32⟩
  | .hbm, ⟨47, _⟩ => ⟨S1x1024, .f32⟩
  | .hbm, ⟨48, _⟩ => ⟨S8x1024, .f32⟩
  | .hbm, ⟨49, _⟩ => ⟨S8x1024, .f32⟩
  | .hbm, ⟨50, _⟩ => ⟨S8x2x1x1x512, .f32⟩
  | .hbm, ⟨51, _⟩ => ⟨S8x1x1x1x512, .f32⟩
  | .hbm, ⟨52, _⟩ => ⟨S8x1x1x512, .f32⟩
  | .hbm, ⟨53, _⟩ => ⟨S8x1x1x1x512, .f32⟩
  | .hbm, ⟨54, _⟩ => ⟨S8x1x1x512, .f32⟩
  | .hbm, ⟨55, _⟩ => ⟨S_, .f32⟩
  | .hbm, ⟨56, _⟩ => ⟨S8x1x1x512, .f32⟩
  | .hbm, ⟨57, _⟩ => ⟨S8x1x1x512, .f32⟩
  | .hbm, ⟨58, _⟩ => ⟨S8x64x64x512, .f32⟩
  | .hbm, ⟨59, _⟩ => ⟨S8x64x64x512, .f32⟩
  | .hbm, ⟨60, _⟩ => ⟨S8x64x64x512, .f32⟩
  | .hbm, ⟨61, _⟩ => ⟨S8x64x64x512, .f32⟩
  | _, _ => ⟨S8x64x64x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_call0_cst : Ref sig .tc := ⟨.hbm, 16, rfl⟩
abbrev main_call0_v0 : Ref sig .tc := ⟨.hbm, 17, rfl⟩
abbrev main_call0_v1 : Ref sig .tc := ⟨.hbm, 18, rfl⟩
abbrev main_call0_v2 : Ref sig .tc := ⟨.hbm, 19, rfl⟩
abbrev main_call0_v3 : Ref sig .tc := ⟨.hbm, 20, rfl⟩
abbrev main_call0_v4 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩

abbrev nD : Nat := 1
abbrev τ : Topo := Topo.v7x

variable {F : FTy → Type} [FloatOps F]

class Facts₀ : Prop where
  bcast_S1x1x1x512_S8x64x64x512_0_1_2_3 : S1x1x1x512.BroadcastsInDim S8x64x64x512 (![0, 1, 2, 3] : Fin 4 → Fin S8x64x64x512.rank)
  bcast_S8x64x64x1_S8x64x64x512_0_1_2_3 : S8x64x64x1.BroadcastsInDim S8x64x64x512 (![0, 1, 2, 3] : Fin 4 → Fin S8x64x64x512.rank)
  bcast_S_S8x64x64x512 : S_.BroadcastsInDim S8x64x64x512 (![] : Fin 0 → Fin S8x64x64x512.rank)
  reducesTo_S8x64x64x512_S8x512_d1_2 : S8x64x64x512.ReducesTo [1, 2] S8x512
  h_S_ : 0 < S_.numel
  bcast_S8x512_S8x1x1x512_0_3 : S8x512.BroadcastsInDim S8x1x1x512 (![0, 3] : Fin 2 → Fin S8x1x1x512.rank)
  bcast_S_S8x1x1x512 : S_.BroadcastsInDim S8x1x1x512 (![] : Fin 0 → Fin S8x1x1x512.rank)
  bcast_S8x1x1x512_S8x64x64x512_0_1_2_3 : S8x1x1x512.BroadcastsInDim S8x64x64x512 (![0, 1, 2, 3] : Fin 4 → Fin S8x64x64x512.rank)
  bcast_S1024_S1x1024_1 : S1024.BroadcastsInDim S1x1024 (![1] : Fin 1 → Fin S1x1024.rank)
  bcast_S1x1024_S8x1024_0_1 : S1x1024.BroadcastsInDim S8x1024 (![0, 1] : Fin 2 → Fin S8x1024.rank)
  shapeCasts_S8x1024_S8x2x1x1x512 : S8x1024.ShapeCasts S8x2x1x1x512
  slices_S8x2x1x1x512_S8x1x1x1x512_0_0_0_0_0 : S8x2x1x1x512.Slices ![0, 0, 0, 0, 0] S8x1x1x1x512
  shapeCasts_S8x1x1x1x512_S8x1x1x512 : S8x1x1x1x512.ShapeCasts S8x1x1x512
  slices_S8x2x1x1x512_S8x1x1x1x512_0_1_0_0_0 : S8x2x1x1x512.Slices ![0, 1, 0, 0, 0] S8x1x1x1x512
  dot_S8x64x64x512_S512x512_S8x64x64x512_3_0_012_1_n_n_wf : DotDims.WF S8x64x64x512 S512x512 S8x64x64x512 [3] [0] [0, 1, 2] [1] [] []
  dot_S8x512_S512x1024_S8x1024_1_0_0_1_n_n_wf : DotDims.WF S8x512 S512x1024 S8x1024 [1] [0] [0] [1] [] []

variable [Facts₀]

def dot_S8x64x64x512_S512x512_S8x64x64x512_3_0_012_1_n_n : DotDims S8x64x64x512 S512x512 S8x64x64x512 where
  lhsContracting := [3]
  rhsContracting := [0]
  lhsNonContracting := [0, 1, 2]
  rhsNonContracting := [1]
  lhsBatch := []
  rhsBatch := []
  wf := dot_S8x64x64x512_S512x512_S8x64x64x512_3_0_012_1_n_n_wf
def dot_S8x512_S512x1024_S8x1024_1_0_0_1_n_n : DotDims S8x512 S512x1024 S8x1024 where
  lhsContracting := [1]
  rhsContracting := [0]
  lhsNonContracting := [0]
  rhsNonContracting := [1]
  lhsBatch := []
  rhsBatch := []
  wf := dot_S8x512_S512x1024_S8x1024_1_0_0_1_n_n_wf

class Facts : Prop extends Facts₀ where

variable [Facts]
-- ==== Proof.Spec.lean ====
/-
  The mathematics of the certificate, free of either program: one output channel of one sample.

  For a sample `b` and an output channel `c` let `Y h w` be the activated 1×1-convolution output at pixel (h, w):
  the leaky rectifier of  ∑ₖ x[b,h,w,k]·W[k,c] + nw[c]·noise[b,h,w] + bias[c].  The result at (b, h, w, c) is
      ((Y h w − μ) · rsqrt (σ² + ε)) · (1 + γ) + β
  with γ, β the two halves of the dense layer applied to the sample's latent vector, μ the mean of `Y` over the
  64 × 64 pixels and σ² its variance.  The two programs differ only in how μ and σ² are spelt:
    * one multiplies the pixel sums by 2⁻¹² and takes  σ² = E[Y²] − μ²  (`muK`, `varK`);
    * the other divides the pixel sums by 4096 and takes  σ² = E[(Y − μ)²]  (`muR`, `varR`).
  On finite `Y` the two agree (`SpecLaw.lean`); on the extended reals they need not, which is where the
  precondition is used.
-/
import Idealize.ShloMosaic.PureOps.Ideal
import Idealize.ShloMosaic.Lib.ValueIdx

noncomputable section

open scoped BigOperators

namespace Cert.Spec

open Idealize.ShloMosaic Idealize.ShloMosaic.ValueIdx

/-! ## The argument arrays' shapes -/

abbrev SX : Shape := ⟨4, ![8, 64, 64, 512]⟩
abbrev SL : Shape := ⟨2, ![8, 512]⟩
abbrev SN : Shape := ⟨4, ![8, 64, 64, 1]⟩
abbrev SW : Shape := ⟨2, ![512, 512]⟩
abbrev SP : Shape := ⟨4, ![1, 1, 1, 512]⟩
abbrev SD : Shape := ⟨2, ![512, 1024]⟩
abbrev SB : Shape := ⟨1, ![1024]⟩

/-! ## The literals, as the words both programs print -/

/-- 0. -/
def zero : EReal := Ideal.ofBits .f32 0x00000000#32
/-- The rectifier's negative slope, the f32 nearest 0.2. -/
def slope : EReal := Ideal.ofBits .f32 0x3E4CCCCD#32
/-- 2⁻¹² = 1/4096, exactly. -/
def invN : EReal := Ideal.ofBits .f32 0x39800000#32
/-- 4096. -/
def cntN : EReal := Ideal.ofBits .f32 0x45800000#32
/-- The normalisation's ε, the f32 nearest 1e-8. -/
def eps : EReal := Ideal.ofBits .f32 0x322BCC77#32
/-- 1. -/
def one : EReal := Ideal.ofBits .f32 0x3F800000#32

/-! ## One channel -/

/-- The leaky rectifier on one extended real: `v` where `v ≥ 0`, else `slope · v`. -/
def act (v : EReal) : EReal := Scalar.select (Ideal.cmp .oge v zero) v (slope * v)

/-- The activated pixel from its row of `x`, its column of `W`, and the channel's noise weight, noise and bias. -/
def pix (xr : Fin 512 → EReal) (cwc : Fin 512 → EReal) (nwc nzp bsc : EReal) : EReal :=
  act ((∑ k : Fin 512, xr k * cwc k) + nwc * nzp + bsc)

/-- Mean, as the sum over columns of the sums over rows, times 2⁻¹². -/
def muK (Y : Fin 64 → Fin 64 → EReal) : EReal := (∑ w : Fin 64, ∑ h : Fin 64, Y h w) * invN
/-- Mean of squares, likewise. -/
def sqK (Y : Fin 64 → Fin 64 → EReal) : EReal := (∑ w : Fin 64, ∑ h : Fin 64, Y h w * Y h w) * invN
/-- Variance as E[Y²] − μ². -/
def varK (Y : Fin 64 → Fin 64 → EReal) : EReal := sqK Y - muK Y * muK Y

/-- Mean, as zero plus the sum over all pixels, divided by 4096. -/
def muR (Y : Fin 64 → Fin 64 → EReal) : EReal := Ideal.div (zero + ∑ h : Fin 64, ∑ w : Fin 64, Y h w) cntN
/-- Variance as E[(Y − μ)²]. -/
def varR (Y : Fin 64 → Fin 64 → EReal) : EReal :=
  Ideal.div (zero + ∑ h : Fin 64, ∑ w : Fin 64, (Y h w - muR Y) * (Y h w - muR Y)) cntN

/-- One dense output: the latent row against a column of the dense weight, plus the dense bias. -/
def dense (dlr : Fin 512 → EReal) (wc : Fin 512 → EReal) (bc : EReal) : EReal := (∑ k : Fin 512, dlr k * wc k) + bc

/-- Normalise and modulate one pixel. -/
def modulate (mu var g bt y : EReal) : EReal := ((y - mu) * Ideal.rsqrt (var + eps)) * (one + g) + bt

/-- One channel of one sample at pixel (h, w), the mean and the variance spelt by `muF` and `varF`. -/
def chan (muF varF : (Fin 64 → Fin 64 → EReal) → EReal)
    (xr : Fin 64 → Fin 64 → Fin 512 → EReal) (nzr : Fin 64 → Fin 64 → EReal) (cwc : Fin 512 → EReal) (nwc bsc : EReal)
    (dlr : Fin 512 → EReal) (wgc : Fin 512 → EReal) (bgc : EReal) (wbc : Fin 512 → EReal) (bbc : EReal)
    (h w : Fin 64) : EReal :=
  modulate (muF fun h' w' => pix (xr h' w') cwc nwc (nzr h' w') bsc) (varF fun h' w' => pix (xr h' w') cwc nwc (nzr h' w') bsc)
    (dense dlr wgc bgc) (dense dlr wbc bbc) (pix (xr h w) cwc nwc (nzr h w) bsc)

/-! ## The whole result array -/

/-- Column `c` of the dense layer's first half (γ). -/
def lo (c : Fin 512) : Fin 1024 := ⟨c.val, by omega⟩
/-- Column `c` of its second half (β). -/
def hi (c : Fin 512) : Fin 1024 := ⟨512 + c.val, by omega⟩

/-- The result at (b, h, w, c) as a function of the eight argument arrays. -/
def GAt (muF varF : (Fin 64 → Fin 64 → EReal) → EReal)
    (x : SX.Idx → EReal) (dl : SL.Idx → EReal) (nz : SN.Idx → EReal) (cw : SW.Idx → EReal) (nw bs : SP.Idx → EReal)
    (dw : SD.Idx → EReal) (db : SB.Idx → EReal) (b : Fin 8) (h w : Fin 64) (c : Fin 512) : EReal :=
  chan muF varF (fun h' w' k => x (ix4 b h' w' k)) (fun h' w' => nz (ix4 b h' w' 0)) (fun k => cw (ix2 k c))
    (nw (ix4 0 0 0 c)) (bs (ix4 0 0 0 c)) (fun k => dl (ix2 b k)) (fun k => dw (ix2 k (lo c))) (db (ix1 (lo c)))
    (fun k => dw (ix2 k (hi c))) (db (ix1 (hi c))) h w

/-- The result array with σ² = E[Y²] − μ² and the sums scaled by 2⁻¹². -/
def Gk (x : SX.Idx → EReal) (dl : SL.Idx → EReal) (nz : SN.Idx → EReal) (cw : SW.Idx → EReal) (nw bs : SP.Idx → EReal)
    (dw : SD.Idx → EReal) (db : SB.Idx → EReal) : SX.Idx → EReal :=
  fun i => GAt muK varK x dl nz cw nw bs dw db (i 0) (i 1) (i 2) (i 3)

/-- The result array with σ² = E[(Y − μ)²] and the sums divided by 4096. -/
def Gr (x : SX.Idx → EReal) (dl : SL.Idx → EReal) (nz : SN.Idx → EReal) (cw : SW.Idx → EReal) (nw bs : SP.Idx → EReal)
    (dw : SD.Idx → EReal) (db : SB.Idx → EReal) : SX.Idx → EReal :=
  fun i => GAt muR varR x dl nz cw nw bs dw db (i 0) (i 1) (i 2) (i 3)

theorem Gk_ix4 (x : SX.Idx → EReal) (dl : SL.Idx → EReal) (nz : SN.Idx → EReal) (cw : SW.Idx → EReal) (nw bs : SP.Idx → EReal)
    (dw : SD.Idx → EReal) (db : SB.Idx → EReal) (b : Fin 8) (h w : Fin 64) (c : Fin 512) :
    Gk x dl nz cw nw bs dw db (ix4 b h w c) = GAt muK varK x dl nz cw nw bs dw db b h w c := rfl

theorem Gr_ix4 (x : SX.Idx → EReal) (dl : SL.Idx → EReal) (nz : SN.Idx → EReal) (cw : SW.Idx → EReal) (nw bs : SP.Idx → EReal)
    (dw : SD.Idx → EReal) (db : SB.Idx → EReal) (b : Fin 8) (h w : Fin 64) (c : Fin 512) :
    Gr x dl nz cw nw bs dw db (ix4 b h w c) = GAt muR varR x dl nz cw nw bs dw db b h w c := rfl

/-- An extended real that is a real number. -/
def IsReal (v : EReal) : Prop := ∃ r : ℝ, v = (r : EReal)

end Cert.Spec

end
-- ==== Proof.SpecLaw.lean ====
import proofs.«178649_j29540785062600_1_alg».proof.Proof.Spec

noncomputable section

open scoped BigOperators

namespace Cert.Spec

open Idealize.ShloMosaic Idealize.ShloMosaic.ValueIdx

/-! ## Real numbers inside the extended reals -/

/-- The coercion of a finite sum of reals is the sum of the coercions. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem isReal_coe (r : ℝ) : IsReal (r : EReal) := ⟨r, rfl⟩

theorem isReal_add {u v : EReal} (hu : IsReal u) (hv : IsReal v) : IsReal (u + v) := by
  obtain ⟨a, rfl⟩ := hu
  obtain ⟨b, rfl⟩ := hv
  exact ⟨a + b, (EReal.coe_add a b).symm⟩

theorem isReal_mul {u v : EReal} (hu : IsReal u) (hv : IsReal v) : IsReal (u * v) := by
  obtain ⟨a, rfl⟩ := hu
  obtain ⟨b, rfl⟩ := hv
  exact ⟨a * b, (EReal.coe_mul a b).symm⟩

theorem isReal_sum {ι : Type} [Fintype ι] {f : ι → EReal} (hf : ∀ i, IsReal (f i)) : IsReal (∑ i, f i) := by
  choose g hg using hf
  exact ⟨∑ i, g i, by rw [coe_sum]; exact Finset.sum_congr rfl fun i _ => hg i⟩

/-! ## The literals -/

theorem zero_eq : zero = 0 := by
  simp [zero, Ideal.ofBits, Ideal.ieee]

theorem invN_eq : invN = ((1 / 4096 : ℝ) : EReal) := by
  simp [invN, Ideal.ofBits, Ideal.ieee, -EReal.coe_mul]; norm_num

theorem cntN_eq : cntN = ((4096 : ℝ) : EReal) := by
  simp [cntN, Ideal.ofBits, Ideal.ieee, -EReal.coe_mul]; norm_num

theorem isReal_slope : IsReal slope := by
  simp [slope, Ideal.ofBits, Ideal.ieee, -EReal.coe_mul]
  exact ⟨_, rfl⟩

/-! ## The rectifier and the pixel keep real numbers real -/

/-- The rectifier returns its argument or the slope times its argument: real either way. -/
theorem isReal_act {v : EReal} (hv : IsReal v) : IsReal (act v) := by
  unfold act Scalar.select
  split_ifs
  · exact hv
  · exact isReal_mul isReal_slope hv

/-- The activated pixel of real rows, columns, noise weight, noise and bias is real. -/
theorem isReal_pix {xr cwc : Fin 512 → EReal} {nwc nzp bsc : EReal}
    (hx : ∀ k, IsReal (xr k)) (hc : ∀ k, IsReal (cwc k)) (hnw : IsReal nwc) (hnz : IsReal nzp) (hbs : IsReal bsc) :
    IsReal (pix xr cwc nwc nzp bsc) :=
  isReal_act (isReal_add (isReal_add (isReal_sum fun k => isReal_mul (hx k) (hc k)) (isReal_mul hnw hnz)) hbs)

/-! ## Mean and variance of a real-valued plane -/

/-- The scaled-sum mean of a real plane is the real mean. -/
theorem muK_coe (y : Fin 64 → Fin 64 → ℝ) :
    muK (fun h w => (y h w : EReal)) = (((∑ h, ∑ w, y h w) * (1 / 4096) : ℝ) : EReal) := by
  unfold muK
  rw [invN_eq, Finset.sum_comm]
  simp only [← coe_sum, ← EReal.coe_mul]

/-- The divided-sum mean of a real plane is the real mean. -/
theorem muR_coe (y : Fin 64 → Fin 64 → ℝ) :
    muR (fun h w => (y h w : EReal)) = (((∑ h, ∑ w, y h w) * (1 / 4096) : ℝ) : EReal) := by
  unfold muR
  rw [zero_eq, zero_add, cntN_eq, Ideal.div_coe (by norm_num)]
  simp only [← coe_sum, ← EReal.coe_mul]

/-- The scaled sum of squares of a real plane is the real mean of squares. -/
theorem sqK_coe (y : Fin 64 → Fin 64 → ℝ) :
    sqK (fun h w => (y h w : EReal)) = (((∑ h, ∑ w, y h w * y h w) * (1 / 4096) : ℝ) : EReal) := by
  unfold sqK
  rw [invN_eq, Finset.sum_comm]
  simp only [← coe_sum, ← EReal.coe_mul]

/-- The sum of squared deviations from any number `m`, expanded. -/
theorem sum_sq_dev (y : Fin 64 → Fin 64 → ℝ) (m : ℝ) :
    ∑ h, ∑ w, (y h w - m) * (y h w - m)
      = (∑ h, ∑ w, y h w * y h w) - 2 * m * (∑ h, ∑ w, y h w) + 4096 * (m * m) := by
  have key : ∀ h w, (y h w - m) * (y h w - m) = y h w * y h w - 2 * m * y h w + m * m := by
    intro h w; ring
  simp only [key, Finset.sum_add_distrib, Finset.sum_sub_distrib, ← Finset.mul_sum, Finset.sum_const,
    Finset.card_univ, Fintype.card_fin, nsmul_eq_mul]
  ring

/-- The two spellings of the mean agree on a real plane. -/
theorem muK_eq_muR (y : Fin 64 → Fin 64 → ℝ) :
    muK (fun h w => (y h w : EReal)) = muR (fun h w => (y h w : EReal)) := by
  rw [muK_coe, muR_coe]

/-- The two spellings of the variance agree on a real plane: E[Y²] − μ² = E[(Y − μ)²] with 4096 pixels. -/
theorem varK_eq_varR (y : Fin 64 → Fin 64 → ℝ) :
    varK (fun h w => (y h w : EReal)) = varR (fun h w => (y h w : EReal)) := by
  unfold varK varR
  rw [sqK_coe, muK_coe, muR_coe, zero_eq, zero_add, cntN_eq, Ideal.div_coe (by norm_num)]
  simp only [← EReal.coe_sub, ← EReal.coe_mul, ← coe_sum]
  rw [sum_sq_dev]
  congr 1
  ring

/-! ## One channel, then the whole array -/

/-- One channel with a real-valued activated plane is the same under either spelling. -/
theorem chan_eq (xr : Fin 64 → Fin 64 → Fin 512 → EReal) (nzr : Fin 64 → Fin 64 → EReal) (cwc : Fin 512 → EReal)
    (nwc bsc : EReal) (dlr : Fin 512 → EReal) (wgc : Fin 512 → EReal) (bgc : EReal) (wbc : Fin 512 → EReal) (bbc : EReal)
    (h w : Fin 64) (hY : ∀ h' w', IsReal (pix (xr h' w') cwc nwc (nzr h' w') bsc)) :
    chan muK varK xr nzr cwc nwc bsc dlr wgc bgc wbc bbc h w = chan muR varR xr nzr cwc nwc bsc dlr wgc bgc wbc bbc h w := by
  choose y hy using hY
  have hfun : (fun h' w' => pix (xr h' w') cwc nwc (nzr h' w') bsc) = fun h' w' => (y h' w' : EReal) := by
    funext h' w'; exact hy h' w'
  unfold chan
  rw [hfun, muK_eq_muR y, varK_eq_varR y]

/-- On finite inputs the two spellings of the mean and of the variance agree, so the two result arrays are one. -/
theorem Gk_eq_Gr (x : SX.Idx → EReal) (dl : SL.Idx → EReal) (nz : SN.Idx → EReal) (cw : SW.Idx → EReal) (nw bs : SP.Idx → EReal)
    (dw : SD.Idx → EReal) (db : SB.Idx → EReal)
    (hx : ∀ i, IsReal (x i)) (hnz : ∀ i, IsReal (nz i)) (hcw : ∀ i, IsReal (cw i)) (hnw : ∀ i, IsReal (nw i))
    (hbs : ∀ i, IsReal (bs i)) :
    Gk x dl nz cw nw bs dw db = Gr x dl nz cw nw bs dw db := by
  funext i
  show GAt muK varK x dl nz cw nw bs dw db (i 0) (i 1) (i 2) (i 3)
    = GAt muR varR x dl nz cw nw bs dw db (i 0) (i 1) (i 2) (i 3)
  unfold GAt
  exact chan_eq (fun h' w' k => x (ix4 (i 0) h' w' k)) (fun h' w' => nz (ix4 (i 0) h' w' 0)) (fun k => cw (ix2 k (i 3)))
    (nw (ix4 0 0 0 (i 3))) (bs (ix4 0 0 0 (i 3))) (fun k => dl (ix2 (i 0) k)) (fun k => dw (ix2 k (lo (i 3))))
    (db (ix1 (lo (i 3)))) (fun k => dw (ix2 k (hi (i 3)))) (db (ix1 (hi (i 3)))) (i 1) (i 2)
    (fun h' w' => isReal_pix (fun k => hx (ix4 (i 0) h' w' k)) (fun k => hcw (ix2 k (i 3))) (hnw (ix4 0 0 0 (i 3)))
      (hnz (ix4 (i 0) h' w' 0)) (hbs (ix4 0 0 0 (i 3))))

end Cert.Spec

end
-- ==== Proof.Finite.lean ====
import proofs.«178649_j29540785062600_1_alg».proof.Proof.Spec
import proofs.«178649_j29540785062600_1_alg».proof.Proof.Gen.Pre_finite_inputs
import Idealize.ShloMosaic.Lib.ReduceAll
import Idealize.ShloMosaic.Lib.IdealHost

noncomputable section

namespace Cert.Finite

open Idealize.ShloMosaic Idealize.ShloMosaic.ValueIdx Cert.Pre_finite_inputs Cert.Spec

/-- The f32 word of +∞ is the top element of the extended reals. -/
theorem inf_word : Ideal.ofBits .f32 0x7F800000#32 = (⊤ : EReal) := by
  simp [Ideal.ofBits, Ideal.ieee]

/-- An extended real whose absolute value max x (−x) lies strictly below +∞ is neither of the two infinities, hence a
    real number. -/
theorem isReal_of_abs_lt_top (x : EReal) (h : max x (-x) < ⊤) : IsReal x := by
  induction x using EReal.rec with
  | bot => simp at h
  | coe r => exact ⟨r, rfl⟩
  | top => simp at h

/-- A rank-0 array has exactly one index. -/
instance : Subsingleton S_.Idx := ⟨fun a b => funext fun d => d.elim0⟩

/-- For an array a of any shape: if the entrywise test |a| < +∞, and-ed together over every axis into one bit,
    comes out 1, then every entry of a is a real number. -/
theorem real_of_all {s : Shape} {axes : List (Fin s.rank)} (a : FVec Ideal s .f32)
    (hb : S_.BroadcastsInDim s (![] : Fin 0 → Fin s.rank)) (hr : s.ReducesTo axes S_) (hu : 0 < S_.numel)
    (e : Host.reduce IntOp.andi
          (cmpf .olt (Host.absf a) (broadcastInDim s ![] hb (constant (F := Ideal) S_ .f32 0x7F800000#32)))
          (constantI S_ 1 1#1) hr hu ix0 = 1#1)
    (i : s.Idx) : IsReal (a i) := by
  -- the and over all entries is 1, so the test bit at entry i is 1
  have h1 := Host.reduce_andi_all _ _ hr hu ix0 e i
  -- that bit compares max (a i) (−a i) with the broadcast scalar, which is +∞
  rw [cmpf_apply, broadcastInDim_scalar_apply, constant_apply, inf_word] at h1
  refine isReal_of_abs_lt_top (a i) ?_
  have h2 : Ideal.cmp .olt (max (a i) (-(a i))) ⊤ = 1#1 := h1
  simp only [Ideal.cmp] at h2
  by_contra hc
  simp [hc] at h2

/-- The precondition says every entry of every float argument is a real number; stated here for the five arrays the
    activation is computed from. -/
theorem real_of_pre [Cert.Pre_finite_inputs.Facts]
    (a0 : FVec Ideal S8x64x64x512 .f32) (a1 : FVec Ideal S8x512 .f32) (a2 : FVec Ideal S8x64x64x1 .f32)
    (a3 : FVec Ideal S512x512 .f32) (a4 a5 : FVec Ideal S1x1x1x512 .f32) (a6 : FVec Ideal S512x1024 .f32)
    (a7 : FVec Ideal S1024 .f32)
    (h : Cert.Pre_finite_inputs.fn (F := Ideal) a0 a1 a2 a3 a4 a5 a6 a7 = fun _ => 1#1) :
    (∀ i, IsReal (a0 i)) ∧ (∀ i, IsReal (a2 i)) ∧ (∀ i, IsReal (a3 i)) ∧ (∀ i, IsReal (a4 i)) ∧ (∀ i, IsReal (a5 i)) := by
  -- the rank-0 result at its one index: eight all-entries tests and-ed together, left-nested
  have h0 := congrFun h ix0
  dsimp only [fn, fn_part1, fn_part2] at h0
  -- peel the conjuncts from the outside in: a7 and a6 are not needed, a1 is dropped at the end
  obtain ⟨h0, _⟩ := IntOp.andi_eq_one.1 h0
  obtain ⟨h0, _⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, _⟩ := IntOp.andi_eq_one.1 h0
  exact ⟨real_of_all a0 _ _ _ e0, real_of_all a2 _ _ _ e2, real_of_all a3 _ _ _ e3, real_of_all a4 _ _ _ e4,
    real_of_all a5 _ _ _ e5⟩

end Cert.Finite

end
-- ==== Proof.RefTerm.lean ====
/-
  The reference's result as ONE term of its eight argument arrays, stage by stage in the order the reference
  computes: the pre-activation (1×1 convolution + weighted noise + bias), the leaky rectifier, the mean over
  the pixels, the variance as the mean of the squared deviations, the normalised activation, the dense layer
  on the latents reshaped into its γ and β halves, and the modulated result.
-/
import proofs.«178649_j29540785062600_1_alg».proof.Proof.Gen.ReferenceIdeal

noncomputable section

namespace Cert.ReferenceIdeal.RefTerm

open Cert.ReferenceIdeal Idealize.ShloMosaic Idealize.SL.Sem

variable {F : FTy → Type} [FloatOps F] [Facts]
open Facts₀ Facts

/-- The contents of an f32 array of shape `s`. -/
abbrev C (s : Shape) : Type := (⟨s, .f32⟩ : BufTy).Contents (Elt F)

/-- x·W + nw·noise + bias, every operand broadcast to the result's shape. -/
def pre (a0 : C (F := F) S8x64x64x512) (a2 : C (F := F) S8x64x64x1) (a3 : C (F := F) S512x512) (a4 a5 : C (F := F) S1x1x1x512) :
    C (F := F) S8x64x64x512 :=
  addf (addf (Host.dotGeneral dot_S8x64x64x512_S512x512_S8x64x64x512_3_0_012_1_n_n none a0 a3)
      (mulf (broadcastInDim S8x64x64x512 ![0, 1, 2, 3] bcast_S1x1x1x512_S8x64x64x512_0_1_2_3 a4)
        (broadcastInDim S8x64x64x512 ![0, 1, 2, 3] bcast_S8x64x64x1_S8x64x64x512_0_1_2_3 a2)))
    (broadcastInDim S8x64x64x512 ![0, 1, 2, 3] bcast_S1x1x1x512_S8x64x64x512_0_1_2_3 a5)

/-- The leaky rectifier: `v` where `v ≥ 0`, else 0.2·v. -/
def leaky (v : C (F := F) S8x64x64x512) : C (F := F) S8x64x64x512 :=
  select (cmpf .oge v (broadcastInDim S8x64x64x512 ![] bcast_S_S8x64x64x512 (constant S_ .f32 0x00000000#32)))
    v (mulf (broadcastInDim S8x64x64x512 ![] bcast_S_S8x64x64x512 (constant S_ .f32 0x3E4CCCCD#32)) v)

/-- The mean over the pixels, kept as [8, 1, 1, 512]. -/
def mean (y : C (F := F) S8x64x64x512) : C (F := F) S8x1x1x512 :=
  Host.divf (broadcastInDim S8x1x1x512 ![0, 3] bcast_S8x512_S8x1x1x512_0_3
      (Host.reduceAdd y (constant S_ .f32 0x00000000#32) reducesTo_S8x64x64x512_S8x512_d1_2 h_S_))
    (broadcastInDim S8x1x1x512 ![] bcast_S_S8x1x1x512 (constant S_ .f32 0x45800000#32))

/-- The deviation from a per-sample, per-channel value. -/
def centred (y : C (F := F) S8x64x64x512) (mu : C (F := F) S8x1x1x512) : C (F := F) S8x64x64x512 :=
  subf y (broadcastInDim S8x64x64x512 ![0, 1, 2, 3] bcast_S8x1x1x512_S8x64x64x512_0_1_2_3 mu)

/-- The variance: the mean of the squared deviations. -/
def variance (y : C (F := F) S8x64x64x512) (mu : C (F := F) S8x1x1x512) : C (F := F) S8x1x1x512 :=
  mean (mulf (centred y mu) (centred y mu))

/-- The normalised activation (y − μ)·rsqrt(σ² + ε). -/
def normed (y : C (F := F) S8x64x64x512) (mu var : C (F := F) S8x1x1x512) : C (F := F) S8x64x64x512 :=
  mulf (centred y mu) (broadcastInDim S8x64x64x512 ![0, 1, 2, 3] bcast_S8x1x1x512_S8x64x64x512_0_1_2_3
    (Host.rsqrt (addf var (broadcastInDim S8x1x1x512 ![] bcast_S_S8x1x1x512 (constant S_ .f32 0x322BCC77#32)))))

/-- The dense layer on the latents, reshaped to [8, 2, 1, 1, 512]. -/
def gb (a1 : C (F := F) S8x512) (a6 : C (F := F) S512x1024) (a7 : C (F := F) S1024) : C (F := F) S8x2x1x1x512 :=
  shapeCast S8x2x1x1x512 (addf (Host.dotGeneral dot_S8x512_S512x1024_S8x1024_1_0_0_1_n_n none a1 a6)
    (broadcastInDim S8x1024 ![0, 1] bcast_S1x1024_S8x1024_0_1 (broadcastInDim S1x1024 ![1] bcast_S1024_S1x1024_1 a7)))
    shapeCasts_S8x1024_S8x2x1x1x512

/-- Its first half, γ. -/
def gammaOf (g : C (F := F) S8x2x1x1x512) : C (F := F) S8x1x1x512 :=
  shapeCast S8x1x1x512 (extractStridedSlice S8x1x1x1x512 ![0, 0, 0, 0, 0] g slices_S8x2x1x1x512_S8x1x1x1x512_0_0_0_0_0)
    shapeCasts_S8x1x1x1x512_S8x1x1x512

/-- Its second half, β. -/
def betaOf (g : C (F := F) S8x2x1x1x512) : C (F := F) S8x1x1x512 :=
  shapeCast S8x1x1x512 (extractStridedSlice S8x1x1x1x512 ![0, 1, 0, 0, 0] g slices_S8x2x1x1x512_S8x1x1x1x512_0_1_0_0_0)
    shapeCasts_S8x1x1x1x512_S8x1x1x512

/-- normed·(1 + γ) + β. -/
def modulated (yn : C (F := F) S8x64x64x512) (g : C (F := F) S8x2x1x1x512) : C (F := F) S8x64x64x512 :=
  addf (mulf yn (broadcastInDim S8x64x64x512 ![0, 1, 2, 3] bcast_S8x1x1x512_S8x64x64x512_0_1_2_3
      (addf (broadcastInDim S8x1x1x512 ![] bcast_S_S8x1x1x512 (constant S_ .f32 0x3F800000#32)) (gammaOf g))))
    (broadcastInDim S8x64x64x512 ![0, 1, 2, 3] bcast_S8x1x1x512_S8x64x64x512_0_1_2_3 (betaOf g))

/-- The activated convolution output. -/
def act (a0 : C (F := F) S8x64x64x512) (a2 : C (F := F) S8x64x64x1) (a3 : C (F := F) S512x512) (a4 a5 : C (F := F) S1x1x1x512) :
    C (F := F) S8x64x64x512 := leaky (pre a0 a2 a3 a4 a5)

/-- The reference's result. -/
def out (a0 : C (F := F) S8x64x64x512) (a1 : C (F := F) S8x512) (a2 : C (F := F) S8x64x64x1) (a3 : C (F := F) S512x512)
    (a4 a5 : C (F := F) S1x1x1x512) (a6 : C (F := F) S512x1024) (a7 : C (F := F) S1024) : C (F := F) S8x64x64x512 :=
  modulated (normed (act a0 a2 a3 a4 a5) (mean (act a0 a2 a3 a4 a5)) (variance (act a0 a2 a3 a4 a5) (mean (act a0 a2 a3 a4 a5))))
    (gb a1 a6 a7)

end Cert.ReferenceIdeal.RefTerm

end
-- ==== Proof.RefRun.lean ====
import proofs.«178649_j29540785062600_1_alg».proof.Proof.RefTerm
import Idealize.ShloMosaic.Lib.StableHlo.Run

noncomputable section

namespace Cert.ReferenceIdeal.Run

open Cert.ReferenceIdeal Cert.ReferenceIdeal.Gen Idealize.ShloMosaic Idealize.ShloMosaic.TcCoe Idealize.SL.Sem Idealize.ShloMosaic.StableHlo

variable {F : FTy → Type} [FloatOps F]

/-- The reference's 54 array operations in the order it performs them: the eight of the pre-activation, the
    seven of the leaky rectifier (the zero and its broadcast, the comparison, the slope and its broadcast, the
    scaled copy, the selection) written at the place the rectifier is applied, then the thirty-nine that follow. -/
abbrev ops : List (HloOp τ sig (Elt F)) :=
  [ binary main_arg0 main_arg3 main_v0 ((fun l r => Host.dotGeneral dot_S8x64x64x512_S512x512_S8x64x64x512_3_0_012_1_n_n none l r) : (⟨S8x64x64x512, .f32⟩ : BufTy).Contents (Elt F) → (⟨S512x512, .f32⟩ : BufTy).Contents (Elt F) → (⟨S8x64x64x512, .f32⟩ : BufTy).Contents (Elt F)),
    unary main_arg4 main_v1 (broadcastInDim S8x64x64x512 ![0, 1, 2, 3] bcast_S1x1x1x512_S8x64x64x512_0_1_2_3 : (⟨S1x1x1x512, .f32⟩ : BufTy).Contents (Elt F) → (⟨S8x64x64x512, .f32⟩ : BufTy).Contents (Elt F)),
    unary main_arg2 main_v2 (broadcastInDim S8x64x64x512 ![0, 1, 2, 3] bcast_S8x64x64x1_S8x64x64x512_0_1_2_3 : (⟨S8x64x64x1, .f32⟩ : BufTy).Contents (Elt F) → (⟨S8x64x64x512, .f32⟩ : BufTy).Contents (Elt F)),
    binary main_v1 main_v2 main_v3 (mulf : (⟨S8x64x64x512, .f32⟩ : BufTy).Contents (Elt F) → (⟨S8x64x64x512, .f32⟩ : BufTy).Contents (Elt F) → (⟨S8x64x64x512, .f32⟩ : BufTy).Contents (Elt F)),
    binary main_v0 main_v3 main_v4 (addf : (⟨S8x64x64x512, .f32⟩ : BufTy).Contents (Elt F) → (⟨S8x64x64x512, .f32⟩ : BufTy).Contents (Elt F) → (⟨S8x64x64x512, .f32⟩ : BufTy).Contents (Elt F)),
    unary main_arg5 main_v5 (broadcastInDim S8x64x64x512 ![0, 1, 2, 3] bcast_S1x1x1x512_S8x64x64x512_0_1_2_3 : (⟨S1x1x1x512, .f32⟩ : BufTy).Contents (Elt F) → (⟨S8x64x64x512, .f32⟩ : BufTy).Contents (Elt F)),
    binary main_v4 main_v5 main_v6 (addf : (⟨S8x64x64x512, .f32⟩ : BufTy).Contents (Elt F) → (⟨S8x64x64x512, .f32⟩ : BufTy).Contents (Elt F) → (⟨S8x64x64x512, .f32⟩ : BufTy).Contents (Elt F)),
    nullary main_cst (constant S_ .f32 0x3E4CCCCD#32),
    TRef.nullary main_call0.cst (constant S_ .f32 0x00000000#32),
    TRef.unary main_call0.cst main_call0.v0 (broadcastInDim S8x64x64x512 ![] bcast_S_S8x64x64x512),
    TRef.binary (.of main_v6) main_call0.v0 main_call0.v1 (cmpf .oge),
    TRef.unary (.of main_cst) main_call0.v2 id,
    TRef.unary main_call0.v2 main_call0.v3 (broadcastInDim S8x64x64x512 ![] bcast_S_S8x64x64x512),
    TRef.binary main_call0.v3 (.of main_v6) main_call0.v4 mulf,
    TRef.ternary main_call0.v1 (.of main_v6) main_call0.v4 main_call0.call0.v0 select,
    nullary main_cst_0 (constant S_ .f32 0x00000000#32),
    binary main_v7 main_cst_0 main_v8 ((fun x v => Host.reduceAdd x v reducesTo_S8x64x64x512_S8x512_d1_2 h_S_) : (⟨S8x64x64x512, .f32⟩ : BufTy).Contents (Elt F) → (⟨S_, .f32⟩ : BufTy).Contents (Elt F) → (⟨S8x512, .f32⟩ : BufTy).Contents (Elt F)),
    unary main_v8 main_v9 (broadcastInDim S8x1x1x512 ![0, 3] bcast_S8x512_S8x1x1x512_0_3 : (⟨S8x512, .f32⟩ : BufTy).Contents (Elt F) → (⟨S8x1x1x512, .f32⟩ : BufTy).Contents (Elt F)),
    nullary main_cst_1 (constant S_ .f32 0x45800000#32),
    unary main_cst_1 main_v10 (broadcastInDim S8x1x1x512 ![] bcast_S_S8x1x1x512 : (⟨S_, .f32⟩ : BufTy).Contents (Elt F) → (⟨S8x1x1x512, .f32⟩ : BufTy).Contents (Elt F)),
    binary main_v9 main_v10 main_v11 (Host.divf : (⟨S8x1x1x512, .f32⟩ : BufTy).Contents (Elt F) → (⟨S8x1x1x512, .f32⟩ : BufTy).Contents (Elt F) → (⟨S8x1x1x512, .f32⟩ : BufTy).Contents (Elt F)),
    unary main_v11 main_v12 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v7 main_v12 main_v13 (subf : (⟨S8x64x64x512, .f32⟩ : BufTy).Contents (Elt F) → (⟨S8x64x64x512, .f32⟩ : BufTy).Contents (Elt F) → (⟨S8x64x64x512, .f32⟩ : BufTy).Contents (Elt F)),
    binary main_v13 main_v13 main_v14 (mulf : (⟨S8x64x64x512, .f32⟩ : BufTy).Contents (Elt F) → (⟨S8x64x64x512, .f32⟩ : BufTy).Contents (Elt F) → (⟨S8x64x64x512, .f32⟩ : BufTy).Contents (Elt F)),
    nullary main_cst_2 (constant S_ .f32 0x00000000#32),
    binary main_v14 main_cst_2 main_v15 ((fun x v => Host.reduceAdd x v reducesTo_S8x64x64x512_S8x512_d1_2 h_S_) : (⟨S8x64x64x512, .f32⟩ : BufTy).Contents (Elt F) → (⟨S_, .f32⟩ : BufTy).Contents (Elt F) → (⟨S8x512, .f32⟩ : BufTy).Contents (Elt F)),
    unary main_v15 main_v16 (broadcastInDim S8x1x1x512 ![0, 3] bcast_S8x512_S8x1x1x512_0_3 : (⟨S8x512, .f32⟩ : BufTy).Contents (Elt F) → (⟨S8x1x1x512, .f32⟩ : BufTy).Contents (Elt F)),
    nullary main_cst_3 (constant S_ .f32 0x45800000#32),
    unary main_cst_3 main_v17 (broadcastInDim S8x1x1x512 ![] bcast_S_S8x1x1x512 : (⟨S_, .f32⟩ : BufTy).Contents (Elt F) → (⟨S8x1x1x512, .f32⟩ : BufTy).Contents (Elt F)),
    binary main_v16 main_v17 main_v18 (Host.divf : (⟨S8x1x1x512, .f32⟩ : BufTy).Contents (Elt F) → (⟨S8x1x1x512, .f32⟩ : BufTy).Contents (Elt F) → (⟨S8x1x1x512, .f32⟩ : BufTy).Contents (Elt F)),
    unary main_v11 main_v19 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v7 main_v19 main_v20 (subf : (⟨S8x64x64x512, .f32⟩ : BufTy).Contents (Elt F) → (⟨S8x64x64x512, .f32⟩ : BufTy).Contents (Elt F) → (⟨S8x64x64x512, .f32⟩ : BufTy).Contents (Elt F)),
    nullary main_cst_4 (constant S_ .f32 0x322BCC77#32),
    unary main_cst_4 main_v21 (broadcastInDim S8x1x1x512 ![] bcast_S_S8x1x1x512 : (⟨S_, .f32⟩ : BufTy).Contents (Elt F) → (⟨S8x1x1x512, .f32⟩ : BufTy).Contents (Elt F)),
    binary main_v18 main_v21 main_v22 (addf : (⟨S8x1x1x512, .f32⟩ : BufTy).Contents (Elt F) → (⟨S8x1x1x512, .f32⟩ : BufTy).Contents (Elt F) → (⟨S8x1x1x512, .f32⟩ : BufTy).Contents (Elt F)),
    unary main_v22 main_v23 (Host.rsqrt : (⟨S8x1x1x512, .f32⟩ : BufTy).Contents (Elt F) → (⟨S8x1x1x512, .f32⟩ : BufTy).Contents (Elt F)),
    unary main_v23 main_v24 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v20 main_v24 main_v25 (mulf : (⟨S8x64x64x512, .f32⟩ : BufTy).Contents (Elt F) → (⟨S8x64x64x512, .f32⟩ : BufTy).Contents (Elt F) → (⟨S8x64x64x512, .f32⟩ : BufTy).Contents (Elt F)),
    binary main_arg1 main_arg6 main_v26 ((fun l r => Host.dotGeneral dot_S8x512_S512x1024_S8x1024_1_0_0_1_n_n none l r) : (⟨S8x512, .f32⟩ : BufTy).Contents (Elt F) → (⟨S512x1024, .f32⟩ : BufTy).Contents (Elt F) → (⟨S8x1024, .f32⟩ : BufTy).Contents (Elt F)),
    unary main_arg7 main_v27 (broadcastInDim S1x1024 ![1] bcast_S1024_S1x1024_1 : (⟨S1024, .f32⟩ : BufTy).Contents (Elt F) → (⟨S1x1024, .f32⟩ : BufTy).Contents (Elt F)),
    unary main_v27 main_v28 (broadcastInDim S8x1024 ![0, 1] bcast_S1x1024_S8x1024_0_1 : (⟨S1x1024, .f32⟩ : BufTy).Contents (Elt F) → (⟨S8x1024, .f32⟩ : BufTy).Contents (Elt F)),
    binary main_v26 main_v28 main_v29 (addf : (⟨S8x1024, .f32⟩ : BufTy).Contents (Elt F) → (⟨S8x1024, .f32⟩ : BufTy).Contents (Elt F) → (⟨S8x1024, .f32⟩ : BufTy).Contents (Elt F)),
    reshape main_v29 main_v30 rfl shapeCasts_S8x1024_S8x2x1x1x512,
    unary main_v30 main_v31 ((extractStridedSlice S8x1x1x1x512 ![0, 0, 0, 0, 0] · slices_S8x2x1x1x512_S8x1x1x1x512_0_0_0_0_0) : (⟨S8x2x1x1x512, .f32⟩ : BufTy).Contents (Elt F) → (⟨S8x1x1x1x512, .f32⟩ : BufTy).Contents (Elt F)),
    reshape main_v31 main_v32 rfl shapeCasts_S8x1x1x1x512_S8x1x1x512,
    unary main_v30 main_v33 ((extractStridedSlice S8x1x1x1x512 ![0, 1, 0, 0, 0] · slices_S8x2x1x1x512_S8x1x1x1x512_0_1_0_0_0) : (⟨S8x2x1x1x512, .f32⟩ : BufTy).Contents (Elt F) → (⟨S8x1x1x1x512, .f32⟩ : BufTy).Contents (Elt F)),
    reshape main_v33 main_v34 rfl shapeCasts_S8x1x1x1x512_S8x1x1x512,
    nullary main_cst_5 (constant S_ .f32 0x3F800000#32),
    unary main_cst_5 main_v35 (broadcastInDim S8x1x1x512 ![] bcast_S_S8x1x1x512 : (⟨S_, .f32⟩ : BufTy).Contents (Elt F) → (⟨S8x1x1x512, .f32⟩ : BufTy).Contents (Elt F)),
    binary main_v35 main_v32 main_v36 (addf : (⟨S8x1x1x512, .f32⟩ : BufTy).Contents (Elt F) → (⟨S8x1x1x512, .f32⟩ : BufTy).Contents (Elt F) → (⟨S8x1x1x512, .f32⟩ : BufTy).Contents (Elt F)),
    unary main_v36 main_v37 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v25 main_v37 main_v38 (mulf : (⟨S8x64x64x512, .f32⟩ : BufTy).Contents (Elt F) → (⟨S8x64x64x512, .f32⟩ : BufTy).Contents (Elt F) → (⟨S8x64x64x512, .f32⟩ : BufTy).Contents (Elt F)),
    unary main_v34 main_v39 (broadcastInDim S8x64x64x512 ![0, 1, 2, 3] bcast_S8x1x1x512_S8x64x64x512_0_1_2_3 : (⟨S8x1x1x512, .f32⟩ : BufTy).Contents (Elt F) → (⟨S8x64x64x512, .f32⟩ : BufTy).Contents (Elt F)),
    binary main_v38 main_v39 main_v40 (addf : (⟨S8x64x64x512, .f32⟩ : BufTy).Contents (Elt F) → (⟨S8x64x64x512, .f32⟩ : BufTy).Contents (Elt F) → (⟨S8x64x64x512, .f32⟩ : BufTy).Contents (Elt F)) ]

set_option maxRecDepth 4096 in
/-- The reference is that straight line: the rectifier and the selection it applies unfolded where they are applied. -/
theorem main_eq (c : Dev nD) : main (F := F) c = seq ops := by
  simp only [main, fn_leaky_relu.body, fn_where.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every operation reads and writes arrays of the device only. -/
theorem ops_sub : (ops : List (HloOp τ sig (Elt F))).Forall fun op => op.bufs ⊆ tcRefs τ sig :=
  ⟨binary_bufs_sub .., unary_bufs_sub .., unary_bufs_sub .., binary_bufs_sub .., binary_bufs_sub .., unary_bufs_sub ..,
    binary_bufs_sub .., nullary_bufs_sub .., nullary_bufs_sub .., unary_bufs_sub .., binary_bufs_sub .., unary_bufs_sub ..,
    unary_bufs_sub .., binary_bufs_sub .., ternary_bufs_sub .., nullary_bufs_sub .., binary_bufs_sub .., unary_bufs_sub ..,
    nullary_bufs_sub .., unary_bufs_sub .., binary_bufs_sub .., unary_bufs_sub .., binary_bufs_sub .., binary_bufs_sub ..,
    nullary_bufs_sub .., binary_bufs_sub .., unary_bufs_sub .., nullary_bufs_sub .., unary_bufs_sub .., binary_bufs_sub ..,
    unary_bufs_sub .., binary_bufs_sub .., nullary_bufs_sub .., unary_bufs_sub .., binary_bufs_sub .., unary_bufs_sub ..,
    unary_bufs_sub .., binary_bufs_sub .., binary_bufs_sub .., unary_bufs_sub .., unary_bufs_sub .., binary_bufs_sub ..,
    reshape_bufs_sub .., unary_bufs_sub .., reshape_bufs_sub .., unary_bufs_sub .., reshape_bufs_sub .., nullary_bufs_sub ..,
    unary_bufs_sub .., binary_bufs_sub .., unary_bufs_sub .., binary_bufs_sub .., unary_bufs_sub .., binary_bufs_sub ..⟩

/-- Read at the result array, the contents after the operations are the staged term of the contents of the eight
    argument arrays. -/
theorem out_eq (V : Valuation τ sig (Elt F)) :
    after ops V (main_v40 : DevRef τ sig)
      = RefTerm.out (V (main_arg0 : DevRef τ sig)) (V (main_arg1 : DevRef τ sig)) (V (main_arg2 : DevRef τ sig))
          (V (main_arg3 : DevRef τ sig)) (V (main_arg4 : DevRef τ sig)) (V (main_arg5 : DevRef τ sig))
          (V (main_arg6 : DevRef τ sig)) (V (main_arg7 : DevRef τ sig)) := by
  after_results_simp
  rfl

/-! No operation writes an argument array: each keeps its contents. -/

theorem arg0_eq (V : Valuation τ sig (Elt F)) :
    after ops V (main_arg0 : DevRef τ sig) = V (main_arg0 : DevRef τ sig) := by
  after_results_simp

theorem arg1_eq (V : Valuation τ sig (Elt F)) :
    after ops V (main_arg1 : DevRef τ sig) = V (main_arg1 : DevRef τ sig) := by
  after_results_simp

theorem arg2_eq (V : Valuation τ sig (Elt F)) :
    after ops V (main_arg2 : DevRef τ sig) = V (main_arg2 : DevRef τ sig) := by
  after_results_simp

theorem arg3_eq (V : Valuation τ sig (Elt F)) :
    after ops V (main_arg3 : DevRef τ sig) = V (main_arg3 : DevRef τ sig) := by
  after_results_simp

theorem arg4_eq (V : Valuation τ sig (Elt F)) :
    after ops V (main_arg4 : DevRef τ sig) = V (main_arg4 : DevRef τ sig) := by
  after_results_simp

theorem arg5_eq (V : Valuation τ sig (Elt F)) :
    after ops V (main_arg5 : DevRef τ sig) = V (main_arg5 : DevRef τ sig) := by
  after_results_simp

theorem arg6_eq (V : Valuation τ sig (Elt F)) :
    after ops V (main_arg6 : DevRef τ sig) = V (main_arg6 : DevRef τ sig) := by
  after_results_simp

theorem arg7_eq (V : Valuation τ sig (Elt F)) :
    after ops V (main_arg7 : DevRef τ sig) = V (main_arg7 : DevRef τ sig) := by
  after_results_simp

/-- Every weakly fair execution of the reference terminates with its result at `RefTerm.out` of the arguments and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v40) = RefTerm.out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v40).trans (out_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _),
      (h c main_arg6).trans (arg6_eq _), (h c main_arg7).trans (arg7_eq _)⟩)
    (run_seq scopedRefs_eq scopedSems_eq defs main (fun _ => ops) main_eq (fun _ => ops_sub) m ρ)

end Cert.ReferenceIdeal.Run

end
-- ==== Proof.RefStats.lean ====
import proofs.«178649_j29540785062600_1_alg».proof.Proof.RefTerm
import proofs.«178649_j29540785062600_1_alg».proof.Proof.Spec
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefStats

open Cert.ReferenceIdeal Cert.ReferenceIdeal.Gen Idealize.ShloMosaic Idealize.ShloMosaic.ValueIdx Cert.Spec

/-- The 1×1 convolution at (b, h, w, c): the sum over the 512 input channels k of x[b, h, w, k] · W[k, c]. -/
theorem dotRow_apply (a0 : RefTerm.C (F := Ideal) S8x64x64x512) (a3 : RefTerm.C (F := Ideal) S512x512)
    (b : Fin 8) (h w : Fin 64) (c : Fin 512) :
    Host.dotGeneral (F := Ideal) (φ₁ := .f32) (φ₂ := .f32) dot_S8x64x64x512_S512x512_S8x64x64x512_3_0_012_1_n_n none a0 a3 (ix4 b h w c)
      = ∑ k : Fin 512, a0 (ix4 b h w k) * a3 (ix2 k c) := by
  show FloatOps.dotGeneral (F := Ideal) (φ₁ := .f32) (φ₂ := .f32) _ none _ a0 a3 (ix4 b h w c) = _
  rw [Ideal.dotGeneral_apply,
    ← Equiv.sum_comp (contrEquiv1 dot_S8x64x64x512_S512x512_S8x64x64x512_3_0_012_1_n_n 512 rfl rfl).symm]
  refine Finset.sum_congr rfl fun k _ => ?_
  have ck := contrEquiv1_symm_val dot_S8x64x64x512_S512x512_S8x64x64x512_3_0_012_1_n_n 512 rfl rfl k
  have l : dot_S8x64x64x512_S512x512_S8x64x64x512_3_0_012_1_n_n.lhsIdx (ix4 b h w c)
      ((contrEquiv1 _ 512 rfl rfl).symm k) = ix4 b h w k := by
    funext ax; apply Fin.ext
    match ax with
    | ⟨0, _⟩ => simp [DotDims.lhsIdx, dot_S8x64x64x512_S512x512_S8x64x64x512_3_0_012_1_n_n]; rfl
    | ⟨1, _⟩ => simp [DotDims.lhsIdx, dot_S8x64x64x512_S512x512_S8x64x64x512_3_0_012_1_n_n]; rfl
    | ⟨2, _⟩ => simp [DotDims.lhsIdx, dot_S8x64x64x512_S512x512_S8x64x64x512_3_0_012_1_n_n]; rfl
    | ⟨3, _⟩ => simp [DotDims.lhsIdx, dot_S8x64x64x512_S512x512_S8x64x64x512_3_0_012_1_n_n]; exact ck
  have r : dot_S8x64x64x512_S512x512_S8x64x64x512_3_0_012_1_n_n.rhsIdx (ix4 b h w c)
      ((contrEquiv1 _ 512 rfl rfl).symm k) = ix2 k c := by
    funext ax; apply Fin.ext
    match ax with
    | ⟨0, _⟩ => simp [DotDims.rhsIdx, dot_S8x64x64x512_S512x512_S8x64x64x512_3_0_012_1_n_n]; exact ck
    | ⟨1, _⟩ => simp [DotDims.rhsIdx, dot_S8x64x64x512_S512x512_S8x64x64x512_3_0_012_1_n_n]; rfl
  rw [l, r]

/-- A per-channel row [1, 1, 1, 512] spread over samples and pixels reads, at (b, h, w, c), its entry (0, 0, 0, c). -/
theorem bcastChan_apply (x : RefTerm.C (F := Ideal) S1x1x1x512) (b : Fin 8) (h w : Fin 64) (c : Fin 512) :
    broadcastInDim S8x64x64x512 ![0, 1, 2, 3] Facts₀.bcast_S1x1x1x512_S8x64x64x512_0_1_2_3 x (ix4 b h w c)
      = x (ix4 0 0 0 c) := by
  refine broadcastInDim_apply _ _ x _ _ fun a => ?_
  match a with
  | ⟨0, _⟩ => rfl
  | ⟨1, _⟩ => rfl
  | ⟨2, _⟩ => rfl
  | ⟨3, _⟩ => rfl

/-- A per-pixel plane [8, 64, 64, 1] spread over the channels reads, at (b, h, w, c), its entry (b, h, w, 0). -/
theorem bcastNoise_apply (x : RefTerm.C (F := Ideal) S8x64x64x1) (b : Fin 8) (h w : Fin 64) (c : Fin 512) :
    broadcastInDim S8x64x64x512 ![0, 1, 2, 3] Facts₀.bcast_S8x64x64x1_S8x64x64x512_0_1_2_3 x (ix4 b h w c)
      = x (ix4 b h w 0) := by
  refine broadcastInDim_apply _ _ x _ _ fun a => ?_
  match a with
  | ⟨0, _⟩ => rfl
  | ⟨1, _⟩ => rfl
  | ⟨2, _⟩ => rfl
  | ⟨3, _⟩ => rfl

/-- A per-sample, per-channel array [8, 1, 1, 512] spread over the pixels reads, at (b, h, w, c), its entry (b, 0, 0, c). -/
theorem bcastStat_apply (x : RefTerm.C (F := Ideal) S8x1x1x512) (b : Fin 8) (h w : Fin 64) (c : Fin 512) :
    broadcastInDim S8x64x64x512 ![0, 1, 2, 3] Facts₀.bcast_S8x1x1x512_S8x64x64x512_0_1_2_3 x (ix4 b h w c)
      = x (ix4 b 0 0 c) := by
  refine broadcastInDim_apply _ _ x _ _ fun a => ?_
  match a with
  | ⟨0, _⟩ => rfl
  | ⟨1, _⟩ => rfl
  | ⟨2, _⟩ => rfl
  | ⟨3, _⟩ => rfl

/-- An [8, 512] array given two unit axes in the middle reads, at (b, 0, 0, c), its entry (b, c). -/
theorem bcastKeep_apply (x : RefTerm.C (F := Ideal) S8x512) (b : Fin 8) (c : Fin 512) :
    broadcastInDim S8x1x1x512 ![0, 3] Facts₀.bcast_S8x512_S8x1x1x512_0_3 x (ix4 b 0 0 c) = x (ix2 b c) := by
  refine broadcastInDim_apply _ _ x _ _ fun a => ?_
  match a with
  | ⟨0, _⟩ => rfl
  | ⟨1, _⟩ => rfl

/-- The pre-activation at (b, h, w, c): row · column, plus weight times noise, plus bias. -/
theorem pre_apply (a0 : RefTerm.C (F := Ideal) S8x64x64x512) (a2 : RefTerm.C (F := Ideal) S8x64x64x1)
    (a3 : RefTerm.C (F := Ideal) S512x512) (a4 a5 : RefTerm.C (F := Ideal) S1x1x1x512)
    (b : Fin 8) (h w : Fin 64) (c : Fin 512) :
    RefTerm.pre (F := Ideal) a0 a2 a3 a4 a5 (ix4 b h w c)
      = (∑ k : Fin 512, a0 (ix4 b h w k) * a3 (ix2 k c)) + a4 (ix4 0 0 0 c) * a2 (ix4 b h w 0) + a5 (ix4 0 0 0 c) := by
  unfold RefTerm.pre
  rw [addf_apply, addf_apply, mulf_apply, dotRow_apply, bcastChan_apply, bcastNoise_apply, bcastChan_apply]

/-- The rectifier at an index is the one-number rectifier of the entry there. -/
theorem leaky_apply (v : RefTerm.C (F := Ideal) S8x64x64x512) (i : S8x64x64x512.Idx) :
    RefTerm.leaky (F := Ideal) v i = act (v i) := by
  unfold RefTerm.leaky
  rw [select_apply, cmpf_apply, mulf_apply, broadcastInDim_scalar_apply, broadcastInDim_scalar_apply]
  rfl

/-- The reference's activated convolution output at (b, h, w, c). -/
theorem act_apply (a0 : RefTerm.C (F := Ideal) S8x64x64x512) (a2 : RefTerm.C (F := Ideal) S8x64x64x1)
    (a3 : RefTerm.C (F := Ideal) S512x512) (a4 a5 : RefTerm.C (F := Ideal) S1x1x1x512)
    (b : Fin 8) (h w : Fin 64) (c : Fin 512) :
    RefTerm.act (F := Ideal) a0 a2 a3 a4 a5 (ix4 b h w c)
      = pix (fun k => a0 (ix4 b h w k)) (fun k => a3 (ix2 k c)) (a4 (ix4 0 0 0 c)) (a2 (ix4 b h w 0)) (a5 (ix4 0 0 0 c)) := by
  unfold RefTerm.act
  rw [leaky_apply, pre_apply]
  rfl

/-- Dropping the two pixel axes of (b, h, w, c) leaves (b, c). -/
theorem drop_ix4 (b : Fin 8) (h w : Fin 64) (c : Fin 512) :
    Facts₀.reducesTo_S8x64x64x512_S8x512_d1_2.drop (ix4 b h w c) = ix2 b c := by
  funext a; apply Fin.ext
  match a with
  | ⟨0, _⟩ => exact Shape.ReducesTo.drop_apply_val_of_eq _ (ix4 b h w c) 0 0
  | ⟨1, _⟩ => exact Shape.ReducesTo.drop_apply_val_of_eq _ (ix4 b h w c) 1 3

/-- An index whose pixel axes drop to (b, c) is (b, its own h, its own w, c). -/
theorem eq_ix4_of_drop (i : S8x64x64x512.Idx) (b : Fin 8) (c : Fin 512)
    (hi : Facts₀.reducesTo_S8x64x64x512_S8x512_d1_2.drop i = ix2 b c) : ix4 b (i 1) (i 2) c = i := by
  have h0 : (i 0).val = b.val :=
    (Shape.ReducesTo.drop_apply_val_of_eq _ i 0 0).symm.trans (congrArg Fin.val (congrFun hi 0))
  have h3 : (i 3).val = c.val :=
    (Shape.ReducesTo.drop_apply_val_of_eq _ i 1 3).symm.trans (congrArg Fin.val (congrFun hi 1))
  funext a; apply Fin.ext
  match a with
  | ⟨0, _⟩ => exact h0.symm
  | ⟨1, _⟩ => rfl
  | ⟨2, _⟩ => rfl
  | ⟨3, _⟩ => exact h3.symm

/-- The sum over the two pixel axes, from an initial value: at (b, c) it is the initial value plus the double sum over
    rows and columns of the entries (b, h, w, c). -/
theorem pixelSum_apply (x : RefTerm.C (F := Ideal) S8x64x64x512) (init : EReal) (b : Fin 8) (c : Fin 512) :
    Ideal.hostReduceAdd Facts₀.reducesTo_S8x64x64x512_S8x512_d1_2 x init (ix2 b c)
      = init + ∑ h : Fin 64, ∑ w : Fin 64, x (ix4 b h w c) := by
  unfold Ideal.hostReduceAdd
  refine congrArg (init + ·) ?_
  rw [← Fintype.sum_prod_type' (fun (h w : Fin 64) => x (ix4 b h w c))]
  refine Finset.sum_nbij' (fun i => (i 1, i 2)) (fun p => ix4 b p.1 p.2 c) ?_ ?_ ?_ ?_ ?_
  · intro i _; exact Finset.mem_univ _
  · intro p _; exact Finset.mem_filter.mpr ⟨Finset.mem_univ _, drop_ix4 b p.1 p.2 c⟩
  · intro i hi; exact eq_ix4_of_drop i b c (Finset.mem_filter.mp hi).2
  · intro p _; rfl
  · intro i hi; exact congrArg x (eq_ix4_of_drop i b c (Finset.mem_filter.mp hi).2).symm

/-- The reference's mean at (b, 0, 0, c): zero plus the sum over the 64 × 64 pixels of channel c of sample b, over 4096. -/
theorem mean_apply (y : RefTerm.C (F := Ideal) S8x64x64x512) (b : Fin 8) (c : Fin 512) :
    RefTerm.mean (F := Ideal) y (ix4 b 0 0 c) = muR (fun h w => y (ix4 b h w c)) := by
  unfold RefTerm.mean
  rw [hostDivf_apply, bcastKeep_apply, hostReduceAdd_apply, pixelSum_apply, broadcastInDim_scalar_apply]
  rfl

/-- The deviation at (b, h, w, c) is the entry there minus the per-sample, per-channel value at (b, 0, 0, c). -/
theorem centred_apply (y : RefTerm.C (F := Ideal) S8x64x64x512) (mu : RefTerm.C (F := Ideal) S8x1x1x512)
    (b : Fin 8) (h w : Fin 64) (c : Fin 512) :
    RefTerm.centred (F := Ideal) y mu (ix4 b h w c) = y (ix4 b h w c) - mu (ix4 b 0 0 c) := by
  unfold RefTerm.centred
  rw [subf_apply, bcastStat_apply]

/-- The squared deviation from the mean at (b, h, w, c), in terms of the entries of channel c of sample b. -/
theorem sqDev_apply (y : RefTerm.C (F := Ideal) S8x64x64x512) (b : Fin 8) (h w : Fin 64) (c : Fin 512) :
    mulf (F := Ideal) (s := S8x64x64x512) (φ := .f32) (RefTerm.centred (F := Ideal) y (RefTerm.mean (F := Ideal) y))
        (RefTerm.centred (F := Ideal) y (RefTerm.mean (F := Ideal) y)) (ix4 b h w c)
      = (y (ix4 b h w c) - muR (fun h' w' => y (ix4 b h' w' c)))
          * (y (ix4 b h w c) - muR (fun h' w' => y (ix4 b h' w' c))) := by
  rw [mulf_apply, centred_apply, mean_apply]

/-- The reference's variance at (b, 0, 0, c). -/
theorem variance_apply (y : RefTerm.C (F := Ideal) S8x64x64x512) (b : Fin 8) (c : Fin 512) :
    RefTerm.variance (F := Ideal) y (RefTerm.mean (F := Ideal) y) (ix4 b 0 0 c) = varR (fun h w => y (ix4 b h w c)) := by
  unfold RefTerm.variance
  rw [mean_apply]
  exact (congrArg muR (funext fun h => funext fun w => sqDev_apply y b h w c)).trans rfl

end Cert.ReferenceIdeal.RefStats

end
-- ==== Proof.RefRead.lean ====
import proofs.«178649_j29540785062600_1_alg».proof.Proof.RefTerm
import proofs.«178649_j29540785062600_1_alg».proof.Proof.Spec
import proofs.«178649_j29540785062600_1_alg».proof.Proof.RefStats
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost

noncomputable section

open scoped BigOperators

namespace Cert.ReferenceIdeal.RefRead

open Cert.ReferenceIdeal Cert.ReferenceIdeal.Gen Idealize.ShloMosaic Idealize.ShloMosaic.ValueIdx Cert.Spec Cert.ReferenceIdeal.RefStats

/-- An [8, 1, 1, 512] array broadcast over the 64 × 64 pixels reads, at (b, h, w, c), its entry (b, 0, 0, c). -/
theorem bcastPix_apply (x : RefTerm.C (F := Ideal) S8x1x1x512) (b : Fin 8) (h w : Fin 64) (c : Fin 512) :
    broadcastInDim S8x64x64x512 ![0, 1, 2, 3] Facts₀.bcast_S8x1x1x512_S8x64x64x512_0_1_2_3 x (ix4 b h w c)
      = x (ix4 b 0 0 c) := by
  refine broadcastInDim_apply _ _ x _ _ fun a => ?_
  match a with
  | ⟨0, _⟩ => rfl
  | ⟨1, _⟩ => rfl
  | ⟨2, _⟩ => rfl
  | ⟨3, _⟩ => rfl

/-- A scalar broadcast to [8, 1, 1, 512] reads the scalar at every index. -/
theorem bcastScalar_apply (x : RefTerm.C (F := Ideal) S_) (j : S8x1x1x512.Idx) :
    broadcastInDim S8x1x1x512 ![] Facts₀.bcast_S_S8x1x1x512 x j = x ix0 :=
  broadcastInDim_scalar_apply _ x j

/-- The normalised activation at (b, h, w, c) from the activation there and the mean and variance at (b, 0, 0, c). -/
theorem normed_apply (y : RefTerm.C (F := Ideal) S8x64x64x512) (mu var : RefTerm.C (F := Ideal) S8x1x1x512)
    (b : Fin 8) (h w : Fin 64) (c : Fin 512) :
    RefTerm.normed (F := Ideal) y mu var (ix4 b h w c)
      = (y (ix4 b h w c) - mu (ix4 b 0 0 c)) * Ideal.rsqrt (var (ix4 b 0 0 c) + eps) := by
  unfold RefTerm.normed RefTerm.centred
  rw [mulf_apply, subf_apply, bcastPix_apply, bcastPix_apply]
  have e : broadcastInDim S8x1x1x512 (![] : Fin 0 → Fin S8x1x1x512.rank) Facts₀.bcast_S_S8x1x1x512
      (constant (F := Ideal) S_ .f32 0x322BCC77#32) (ix4 b 0 0 c) = eps := bcastScalar_apply _ _
  exact congrArg (fun t => (y (ix4 b h w c) - mu (ix4 b 0 0 c)) * Ideal.rsqrt (var (ix4 b 0 0 c) + t)) e

/-- The dense layer's matrix product at (b, n): the latent row b against column n of the dense weight. -/
theorem denseDot_apply (a1 : RefTerm.C (F := Ideal) S8x512) (a6 : RefTerm.C (F := Ideal) S512x1024) (b : Fin 8) (n : Fin 1024) :
    Host.dotGeneral (F := Ideal) (φ₁ := .f32) (φ₂ := .f32) dot_S8x512_S512x1024_S8x1024_1_0_0_1_n_n none a1 a6 (ix2 b n) = ∑ k : Fin 512, a1 (ix2 b k) * a6 (ix2 k n) := by
  show FloatOps.dotGeneral (F := Ideal) (φ₁ := .f32) (φ₂ := .f32) _ none _ a1 a6 (ix2 b n) = _
  rw [Ideal.dotGeneral_apply, ← Equiv.sum_comp (contrEquiv1 dot_S8x512_S512x1024_S8x1024_1_0_0_1_n_n 512 rfl rfl).symm]
  refine Finset.sum_congr rfl fun k _ => ?_
  have ck := contrEquiv1_symm_val dot_S8x512_S512x1024_S8x1024_1_0_0_1_n_n 512 rfl rfl k
  have l2 : (dot_S8x512_S512x1024_S8x1024_1_0_0_1_n_n).lhsIdx (ix2 b n) ((contrEquiv1 dot_S8x512_S512x1024_S8x1024_1_0_0_1_n_n 512 rfl rfl).symm k) = ix2 b k := by
    funext ax; apply Fin.ext
    match ax with
    | ⟨0, _⟩ => rfl
    | ⟨1, _⟩ => exact (DotDims.lhsIdx_val_of_single _ rfl _ _).trans ck
  have r2 : (dot_S8x512_S512x1024_S8x1024_1_0_0_1_n_n).rhsIdx (ix2 b n) ((contrEquiv1 dot_S8x512_S512x1024_S8x1024_1_0_0_1_n_n 512 rfl rfl).symm k) = ix2 k n := by
    funext ax; apply Fin.ext
    match ax with
    | ⟨0, _⟩ => exact (DotDims.rhsIdx_val_of_single _ rfl _ _).trans ck
    | ⟨1, _⟩ => rfl
  rw [l2, r2]

/-- The dense bias, broadcast [1024] → [1, 1024] → [8, 1024], reads at (b, n) its entry n. -/
theorem biasBcast_apply (a7 : RefTerm.C (F := Ideal) S1024) (b : Fin 8) (n : Fin 1024) :
    broadcastInDim S8x1024 ![0, 1] Facts₀.bcast_S1x1024_S8x1024_0_1
        (broadcastInDim S1x1024 ![1] Facts₀.bcast_S1024_S1x1024_1 a7) (ix2 b n) = a7 (ix1 n) := by
  refine (broadcastInDim_apply _ _ _ _ (ix2 (0 : Fin 1) n) fun a => ?_).trans ?_
  · match a with
    | ⟨0, _⟩ => rfl
    | ⟨1, _⟩ => rfl
  · refine broadcastInDim_apply _ _ a7 _ (ix1 n) fun a => ?_
    match a with
    | ⟨0, _⟩ => rfl

/-- The dense layer's [8, 1024] output at (b, n): row b of the latents against column n of the weight, plus bias n. -/
theorem denseOut_apply (a1 : RefTerm.C (F := Ideal) S8x512) (a6 : RefTerm.C (F := Ideal) S512x1024) (a7 : RefTerm.C (F := Ideal) S1024)
    (b : Fin 8) (n : Fin 1024) :
    addf (Host.dotGeneral (F := Ideal) (φ₁ := .f32) (φ₂ := .f32) dot_S8x512_S512x1024_S8x1024_1_0_0_1_n_n none a1 a6)
        (broadcastInDim S8x1024 ![0, 1] Facts₀.bcast_S1x1024_S8x1024_0_1
          (broadcastInDim S1x1024 ![1] Facts₀.bcast_S1024_S1x1024_1 a7)) (ix2 b n)
      = dense (fun k => a1 (ix2 b k)) (fun k => a6 (ix2 k n)) (a7 (ix1 n)) := by
  rw [addf_apply, denseDot_apply, biasBcast_apply]
  rfl

/-- The dense output viewed as [8, 2, 1, 1, 512]: entry (b, s, 0, 0, c) is entry (b, 512·s + c) of the [8, 1024] array. -/
theorem gb_apply (a1 : RefTerm.C (F := Ideal) S8x512) (a6 : RefTerm.C (F := Ideal) S512x1024) (a7 : RefTerm.C (F := Ideal) S1024)
    (b : Fin 8) (s : Fin 2) (c : Fin 512) (n : Fin 1024) (hn : n.val = 512 * s.val + c.val) :
    RefTerm.gb (F := Ideal) a1 a6 a7 (ix5 b s 0 0 c)
      = dense (fun k => a1 (ix2 b k)) (fun k => a6 (ix2 k n)) (a7 (ix1 n)) := by
  unfold RefTerm.gb
  refine (shapeCast_apply _ _ (ix5 b s (0 : Fin 1) (0 : Fin 1) c) (ix2 b n) ?_).trans (denseOut_apply a1 a6 a7 b n)
  rw [Shape.rowMajor_val_two, Shape.rowMajor_val_five]
  show b.val * 1024 + n.val = (((b.val * 2 + s.val) * 1 + 0) * 1 + 0) * 512 + c.val
  omega

/-- The first half of an [8, 2, 1, 1, 512] array at (b, 0, 0, c) is its entry (b, 0, 0, 0, c). -/
theorem gammaOf_apply (g : RefTerm.C (F := Ideal) S8x2x1x1x512) (b : Fin 8) (c : Fin 512) :
    RefTerm.gammaOf (F := Ideal) g (ix4 b 0 0 c) = g (ix5 b 0 0 0 c) := by
  unfold RefTerm.gammaOf
  refine (shapeCast_apply _ _ (ix4 b (0 : Fin 1) (0 : Fin 1) c) (ix5 b (0 : Fin 1) (0 : Fin 1) (0 : Fin 1) c) ?_).trans ?_
  · rw [Shape.rowMajor_val_five, Shape.rowMajor_val_four]
    show (((b.val * 1 + 0) * 1 + 0) * 1 + 0) * 512 + c.val = ((b.val * 1 + 0) * 1 + 0) * 512 + c.val
    omega
  · refine extractStridedSlice_apply _ g _ _ (ix5 b (0 : Fin 2) (0 : Fin 1) (0 : Fin 1) c) fun a => ?_
    match a with
    | ⟨0, _⟩ => show b.val = 0 + b.val; omega
    | ⟨1, _⟩ => rfl
    | ⟨2, _⟩ => rfl
    | ⟨3, _⟩ => rfl
    | ⟨4, _⟩ => show c.val = 0 + c.val; omega

/-- The second half of an [8, 2, 1, 1, 512] array at (b, 0, 0, c) is its entry (b, 1, 0, 0, c). -/
theorem betaOf_apply (g : RefTerm.C (F := Ideal) S8x2x1x1x512) (b : Fin 8) (c : Fin 512) :
    RefTerm.betaOf (F := Ideal) g (ix4 b 0 0 c) = g (ix5 b 1 0 0 c) := by
  unfold RefTerm.betaOf
  refine (shapeCast_apply _ _ (ix4 b (0 : Fin 1) (0 : Fin 1) c) (ix5 b (0 : Fin 1) (0 : Fin 1) (0 : Fin 1) c) ?_).trans ?_
  · rw [Shape.rowMajor_val_five, Shape.rowMajor_val_four]
    show (((b.val * 1 + 0) * 1 + 0) * 1 + 0) * 512 + c.val = ((b.val * 1 + 0) * 1 + 0) * 512 + c.val
    omega
  · refine extractStridedSlice_apply _ g _ _ (ix5 b (1 : Fin 2) (0 : Fin 1) (0 : Fin 1) c) fun a => ?_
    match a with
    | ⟨0, _⟩ => show b.val = 0 + b.val; omega
    | ⟨1, _⟩ => rfl
    | ⟨2, _⟩ => rfl
    | ⟨3, _⟩ => rfl
    | ⟨4, _⟩ => show c.val = 0 + c.val; omega

/-- γ at (b, 0, 0, c): column c of the dense layer. -/
theorem gamma_apply (a1 : RefTerm.C (F := Ideal) S8x512) (a6 : RefTerm.C (F := Ideal) S512x1024) (a7 : RefTerm.C (F := Ideal) S1024)
    (b : Fin 8) (c : Fin 512) :
    RefTerm.gammaOf (F := Ideal) (RefTerm.gb (F := Ideal) a1 a6 a7) (ix4 b 0 0 c)
      = dense (fun k => a1 (ix2 b k)) (fun k => a6 (ix2 k (lo c))) (a7 (ix1 (lo c))) := by
  rw [gammaOf_apply]
  exact gb_apply a1 a6 a7 b 0 c (lo c) (by show c.val = 512 * 0 + c.val; omega)

/-- β at (b, 0, 0, c): column 512 + c of the dense layer. -/
theorem beta_apply (a1 : RefTerm.C (F := Ideal) S8x512) (a6 : RefTerm.C (F := Ideal) S512x1024) (a7 : RefTerm.C (F := Ideal) S1024)
    (b : Fin 8) (c : Fin 512) :
    RefTerm.betaOf (F := Ideal) (RefTerm.gb (F := Ideal) a1 a6 a7) (ix4 b 0 0 c)
      = dense (fun k => a1 (ix2 b k)) (fun k => a6 (ix2 k (hi c))) (a7 (ix1 (hi c))) := by
  rw [betaOf_apply]
  exact gb_apply a1 a6 a7 b 1 c (hi c) (by show 512 + c.val = 512 * 1 + c.val; omega)

/-- The modulated result at (b, h, w, c): the normalised value there times one plus γ at (b, 0, 0, c), plus β at (b, 0, 0, c). -/
theorem modulated_apply (yn : RefTerm.C (F := Ideal) S8x64x64x512) (g : RefTerm.C (F := Ideal) S8x2x1x1x512)
    (b : Fin 8) (h w : Fin 64) (c : Fin 512) :
    RefTerm.modulated (F := Ideal) yn g (ix4 b h w c)
      = yn (ix4 b h w c) * (one + RefTerm.gammaOf (F := Ideal) g (ix4 b 0 0 c)) + RefTerm.betaOf (F := Ideal) g (ix4 b 0 0 c) := by
  unfold RefTerm.modulated
  rw [addf_apply, mulf_apply, bcastPix_apply, bcastPix_apply, addf_apply]
  have e : broadcastInDim S8x1x1x512 (![] : Fin 0 → Fin S8x1x1x512.rank) Facts₀.bcast_S_S8x1x1x512
      (constant (F := Ideal) S_ .f32 0x3F800000#32) (ix4 b 0 0 c) = one := bcastScalar_apply _ _
  rw [e]

/-- Read index by index at the extended reals, the reference's term is `Gr` of its arguments. -/
theorem out_eq_Gr (a0 : RefTerm.C (F := Ideal) S8x64x64x512) (a1 : RefTerm.C (F := Ideal) S8x512)
    (a2 : RefTerm.C (F := Ideal) S8x64x64x1) (a3 : RefTerm.C (F := Ideal) S512x512)
    (a4 a5 : RefTerm.C (F := Ideal) S1x1x1x512) (a6 : RefTerm.C (F := Ideal) S512x1024) (a7 : RefTerm.C (F := Ideal) S1024) :
    RefTerm.out (F := Ideal) a0 a1 a2 a3 a4 a5 a6 a7 = Gr a0 a1 a2 a3 a4 a5 a6 a7 := by
  funext i
  obtain ⟨b, h, w, c, rfl⟩ : ∃ (b : Fin 8) (h w : Fin 64) (c : Fin 512), i = ix4 b h w c :=
    ⟨i 0, i 1, i 2, i 3, eq_ix4 i⟩
  rw [Gr_ix4]
  unfold RefTerm.out
  rw [modulated_apply, normed_apply, gamma_apply, beta_apply, mean_apply, variance_apply]
  simp only [act_apply]
  rfl

end Cert.ReferenceIdeal.RefRead

end
-- ==== Proof.KernelAct.lean ====
import proofs.«178649_j29540785062600_1_alg».proof.Proof.Gen.KernelIdeal.Frame
import proofs.«178649_j29540785062600_1_alg».proof.Proof.Spec
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Act

open Cert.KernelIdeal Cert.KernelIdeal.Gen Idealize.ShloMosaic Idealize.ShloMosaic.ValueIdx Cert.Spec

/-! ## The block product read at an element -/

/-- Row `r`, lane `c` of a [4096,512] by [512,128] product into a zero accumulator is the sum, over the 512 contracted
    positions, of the products of the row's and the column's entries. -/
theorem mm_apply (x : FVec Ideal S4096x512 .bf16) (y : FVec Ideal S512x128 .bf16) (r : Fin 4096) (c : Fin 128) :
    matmul dot_S4096x512_S512x128_S4096x128_1_0_0_1_n_n none x y (constant (F := Ideal) S4096x128 .f32 0x00000000#32) (ix2 r c)
      = ∑ k : Fin 512, x (ix2 r k) * y (ix2 k c) := by
  refine (Ideal.matmul_constant_zero_apply dot_S4096x512_S512x128_S4096x128_1_0_0_1_n_n none x y (ix2 r c)).trans ?_
  rw [← Equiv.sum_comp (contrEquiv1 dot_S4096x512_S512x128_S4096x128_1_0_0_1_n_n 512 rfl rfl).symm]
  refine Finset.sum_congr rfl fun k _ => ?_
  have ck := contrEquiv1_symm_val dot_S4096x512_S512x128_S4096x128_1_0_0_1_n_n 512 rfl rfl k
  have l : dot_S4096x512_S512x128_S4096x128_1_0_0_1_n_n.lhsIdx (ix2 r c)
      ((contrEquiv1 dot_S4096x512_S512x128_S4096x128_1_0_0_1_n_n 512 rfl rfl).symm k) = ix2 r k := by
    funext ax; apply Fin.ext
    match ax with
    | ⟨0, _⟩ => simp [DotDims.lhsIdx, dot_S4096x512_S512x128_S4096x128_1_0_0_1_n_n]; rfl
    | ⟨1, _⟩ => simp [DotDims.lhsIdx, dot_S4096x512_S512x128_S4096x128_1_0_0_1_n_n]; exact ck
  have r' : dot_S4096x512_S512x128_S4096x128_1_0_0_1_n_n.rhsIdx (ix2 r c)
      ((contrEquiv1 dot_S4096x512_S512x128_S4096x128_1_0_0_1_n_n 512 rfl rfl).symm k) = ix2 k c := by
    funext ax; apply Fin.ext
    match ax with
    | ⟨0, _⟩ => simp [DotDims.rhsIdx, dot_S4096x512_S512x128_S4096x128_1_0_0_1_n_n]; exact ck
    | ⟨1, _⟩ => simp [DotDims.rhsIdx, dot_S4096x512_S512x128_S4096x128_1_0_0_1_n_n]; rfl
  rw [l, r']

/-! ## The four summands' arrays, each read at an element -/

/-- The pixels laid out as 4096 rows: row `64 h + w`, column `k` of the flattened block is entry (0, h, w, k) of the
    block (the narrowing of the format changes no value). -/
theorem rows_apply (v0 : Vec Ideal S1x64x64x512 .f32) (h1 : S1x64x64x512.ShapeCasts S64x64x512)
    (hb : FTy.bits .bf16 < FTy.bits .f32) (h2 : S64x64x512.ShapeCasts S4096x512) (h w : Fin 64) (r : Fin 4096)
    (hr : r.val = 64 * h.val + w.val) (k : Fin 512) :
    shapeCast S4096x512 (truncf (F := Ideal) .bf16 (shapeCast S64x64x512 v0 h1) hb) h2 (ix2 r k) = v0 (ix4 0 h w k) := by
  refine (shapeCast_apply _ h2 (ix2 r k) (ix3 h w k) ?_).trans ?_
  · rw [Shape.rowMajor_val_three, Shape.rowMajor_val_two]
    show (h.val * 64 + w.val) * 512 + k.val = r.val * 512 + k.val
    omega
  · exact shapeCast_1abc_abc_apply v0 h1 h w k

/-- The 4096 rows folded back to 64 by 64 pixels: pixel (h, w), lane `c` is row `64 h + w`, column `c`. -/
theorem fold_apply (v6 : FVec Ideal S4096x128 .f32) (h3 : S4096x128.ShapeCasts S64x64x128) (h w : Fin 64) (r : Fin 4096)
    (hr : r.val = 64 * h.val + w.val) (c : Fin 128) :
    shapeCast S64x64x128 v6 h3 (ix3 h w c) = v6 (ix2 r c) :=
  shapeCast_apply v6 h3 _ _ (by
    rw [Shape.rowMajor_val_two, Shape.rowMajor_val_three]
    show r.val * 128 + c.val = (h.val * 64 + w.val) * 128 + c.val
    omega)

/-- A [1,128] row spread over every pixel reads, at pixel (h, w) and lane `c`, the row's entry `c`. -/
theorem lane_apply (v : Vec Ideal S1x128 .f32) (ha : S1x128.ShapeCasts S1x128) (hb : S1x128.ShapeCasts S1x1x128)
    (hc : S1x1x128.Broadcasts S64x64x128) (h w : Fin 64) (c : Fin 128) :
    broadcastTo S64x64x128 (shapeCast S1x1x128 (shapeCast S1x128 v ha) hb) hc (ix3 h w c) = v (ix2 0 c) := by
  refine (broadcastTo_apply _ hc (ix3 h w c) (ix3 0 0 c) ?_).trans ?_
  · intro a
    match a with
    | ⟨0, _⟩ => rfl
    | ⟨1, _⟩ => rfl
    | ⟨2, _⟩ => rfl
  · exact (shapeCast_ab_1ab_apply (shapeCast S1x128 v ha) hb 0 0 c).trans (congrFun (shapeCast_self v ha) _)

/-- The one-lane noise block spread over the 128 lanes reads, at pixel (h, w) and any lane, entry (0, h, w, 0). -/
theorem noise_apply (v8 : Vec Ideal S1x64x64x1 .f32) (ha : S1x64x64x1.ShapeCasts S64x64x1)
    (hb : S64x64x1.Broadcasts S64x64x128) (h w : Fin 64) (c : Fin 128) :
    broadcastTo S64x64x128 (shapeCast S64x64x1 v8 ha) hb (ix3 h w c) = v8 (ix4 0 h w 0) := by
  refine (broadcastTo_apply _ hb (ix3 h w c) (ix3 h w 0) ?_).trans ?_
  · intro a
    match a with
    | ⟨0, _⟩ => rfl
    | ⟨1, _⟩ => rfl
    | ⟨2, _⟩ => rfl
  · exact shapeCast_1abc_abc_apply v8 ha h w 0

/-! ## The activated pixel -/

/-- The product of the flattened pixels with the weight block, folded back to pixels. -/
def pixProd (v0 : Vec Ideal S1x64x64x512 .f32) (v3 : Vec Ideal S512x128 .f32) : FVec Ideal S64x64x128 .f32 :=
  shapeCast S64x64x128
    (matmul dot_S4096x512_S512x128_S4096x128_1_0_0_1_n_n none
      (shapeCast S4096x512
        (truncf .bf16 (shapeCast S64x64x512 v0 Facts₀.shapeCasts_S1x64x64x512_S64x64x512) Facts₀.bitsLt_bf16_f32)
        Facts₀.shapeCasts_S64x64x512_S4096x512)
      (truncf .bf16 v3 Facts₀.bitsLt_bf16_f32) (constant S4096x128 .f32 0x00000000#32))
    Facts₀.shapeCasts_S4096x128_S64x64x128

/-- A [1,128] row spread over the pixels. -/
def rowSpread (v : Vec Ideal S1x128 .f32) : FVec Ideal S64x64x128 .f32 :=
  broadcastTo S64x64x128 (shapeCast S1x1x128 (shapeCast S1x128 v Facts₀.shapeCasts_S1x128_S1x128) Facts₀.shapeCasts_S1x128_S1x1x128)
    Facts₀.broadcasts_S1x1x128_S64x64x128

/-- The noise block spread over the lanes. -/
def noiseSpread (v8 : Vec Ideal S1x64x64x1 .f32) : FVec Ideal S64x64x128 .f32 :=
  broadcastTo S64x64x128 (shapeCast S64x64x1 v8 Facts₀.shapeCasts_S1x64x64x1_S64x64x1) Facts₀.broadcasts_S64x64x1_S64x64x128

/-- Each element of the activated block is the rectifier of product + noise weight · noise + bias there. -/
theorem pay2_split (v0 : Vec Ideal S1x64x64x512 .f32) (v3 : Vec Ideal S512x128 .f32) (v8 : Vec Ideal S1x64x64x1 .f32)
    (v10 v13 : Vec Ideal S1x128 .f32) (i : S64x64x128.Idx) :
    k0_pay2 v0 v3 v8 v10 v13 i = act (pixProd v0 v3 i + rowSpread v10 i * noiseSpread v8 i + rowSpread v13 i) := rfl

/-- The activated pixel (h, w) of lane `c` of the block. -/
theorem pay2_apply (v0 : Vec Ideal S1x64x64x512 .f32) (v3 : Vec Ideal S512x128 .f32) (v8 : Vec Ideal S1x64x64x1 .f32)
    (v10 v13 : Vec Ideal S1x128 .f32) (h w : Fin 64) (c : Fin 128) :
    k0_pay2 v0 v3 v8 v10 v13 (ix3 h w c)
      = pix (fun k => v0 (ix4 0 h w k)) (fun k => v3 (ix2 k c)) (v10 (ix2 0 c)) (v8 (ix4 0 h w 0)) (v13 (ix2 0 c)) := by
  have hp : pixProd v0 v3 (ix3 h w c) = ∑ k : Fin 512, v0 (ix4 0 h w k) * v3 (ix2 k c) := by
    unfold pixProd
    refine (fold_apply _ _ h w ⟨64 * h.val + w.val, by omega⟩ rfl c).trans ?_
    refine (mm_apply _ _ _ c).trans ?_
    refine Finset.sum_congr rfl fun k _ => ?_
    exact congrArg (· * v3 (ix2 k c)) (rows_apply v0 _ _ _ h w _ rfl k)
  have hn : rowSpread v10 (ix3 h w c) = v10 (ix2 0 c) := lane_apply v10 _ _ _ h w c
  have hz : noiseSpread v8 (ix3 h w c) = v8 (ix4 0 h w 0) := noise_apply v8 _ _ h w c
  have hb : rowSpread v13 (ix3 h w c) = v13 (ix2 0 c) := lane_apply v13 _ _ _ h w c
  rw [pay2_split, hp, hn, hz, hb]
  rfl

/-! ## The lane statistics -/

/-- Summing a [64,64,128] array over its first axis: at (w, c) the sum over `h` of the entries (h, w, c). -/
theorem sumRows_apply (x : FVec Ideal S64x64x128 .f32) (hr : S64x64x128.Reduces [0] S64x128) (hφ : FKind.Formats .f32)
    (hacc : (0x00000000#32 : BitVec 32) = FKind.add.neutral .f32 hφ) (w : Fin 64) (c : Fin 128) :
    multiReduction .add [0] S64x128 x 0x00000000#32 hr hφ hacc (ix2 w c) = ∑ h : Fin 64, x (ix3 h w c) := by
  refine (Ideal.multiReduction_add_single x _ hr hφ hacc (ix2 w c)).trans ?_
  refine Finset.sum_congr rfl fun h _ => congrArg x ?_
  funext a; apply Fin.ext
  match a with
  | ⟨0, _⟩ => rfl
  | ⟨1, _⟩ => rfl
  | ⟨2, _⟩ => rfl

/-- Summing a [64,128] array over its first axis: at `c` the sum over `w` of the entries (w, c). -/
theorem sumCols_apply (x : FVec Ideal S64x128 .f32) (hr : S64x128.Reduces [0] S128) (hφ : FKind.Formats .f32)
    (hacc : (0x00000000#32 : BitVec 32) = FKind.add.neutral .f32 hφ) (c : Fin 128) :
    multiReduction .add [0] S128 x 0x00000000#32 hr hφ hacc (ix1 c) = ∑ w : Fin 64, x (ix2 w c) := by
  refine (Ideal.multiReduction_add_single x _ hr hφ hacc (ix1 c)).trans ?_
  refine Finset.sum_congr rfl fun w _ => congrArg x ?_
  funext a; apply Fin.ext
  match a with
  | ⟨0, _⟩ => rfl
  | ⟨1, _⟩ => rfl

/-- The two reductions in turn: at lane `c` the sum over `w` of the sums over `h`. -/
theorem sumPixels_apply (x : FVec Ideal S64x64x128 .f32) (hr : S64x64x128.Reduces [0] S64x128) (hr' : S64x128.Reduces [0] S128)
    (hφ : FKind.Formats .f32) (hacc : (0x00000000#32 : BitVec 32) = FKind.add.neutral .f32 hφ) (c : Fin 128) :
    multiReduction .add [0] S128 (multiReduction .add [0] S64x128 x 0x00000000#32 hr hφ hacc) 0x00000000#32 hr' hφ hacc (ix1 c)
      = ∑ w : Fin 64, ∑ h : Fin 64, x (ix3 h w c) := by
  refine (sumCols_apply _ hr' hφ hacc c).trans ?_
  exact Finset.sum_congr rfl fun w _ => sumRows_apply x hr hφ hacc w c

/-- The lane's mean: the two lane reductions are the double sum over the pixels. -/
theorem pay3_apply (v0 : Vec Ideal S1x64x64x512 .f32) (v3 : Vec Ideal S512x128 .f32) (v8 : Vec Ideal S1x64x64x1 .f32)
    (v10 v13 : Vec Ideal S1x128 .f32) (c : Fin 128) :
    k0_pay3 v0 v3 v8 v10 v13 (ix1 c) = muK (fun h w => k0_pay2 v0 v3 v8 v10 v13 (ix3 h w c)) := by
  unfold muK
  exact congrArg (· * invN) (sumPixels_apply (k0_pay2 v0 v3 v8 v10 v13) _ _ _ _ c)

/-- The lane's sum of squares. -/
theorem pay4_apply (v0 : Vec Ideal S1x64x64x512 .f32) (v3 : Vec Ideal S512x128 .f32) (v8 : Vec Ideal S1x64x64x1 .f32)
    (v10 v13 : Vec Ideal S1x128 .f32) (c : Fin 128) :
    k0_pay4 v0 v3 v8 v10 v13 (ix1 c)
      = ∑ w : Fin 64, ∑ h : Fin 64, k0_pay2 v0 v3 v8 v10 v13 (ix3 h w c) * k0_pay2 v0 v3 v8 v10 v13 (ix3 h w c) :=
  sumPixels_apply (mulf (k0_pay2 v0 v3 v8 v10 v13) (k0_pay2 v0 v3 v8 v10 v13)) _ _ _ _ c

/-- The splat of 2⁻¹². -/
theorem pay5_apply (c : Fin 128) : k0_pay5 (F := Ideal) (ix1 c) = invN := rfl

end Cert.KernelIdeal.Act

end
-- ==== Proof.KernelPay.lean ====
import proofs.«178649_j29540785062600_1_alg».proof.Proof.Gen.KernelIdeal.Frame
import proofs.«178649_j29540785062600_1_alg».proof.Proof.Spec
import proofs.«178649_j29540785062600_1_alg».proof.Proof.KernelAct
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.Pay

open Cert.KernelIdeal Cert.KernelIdeal.Gen Cert.KernelIdeal.Act Idealize.ShloMosaic Idealize.ShloMosaic.ValueIdx Cert.Spec

/-! ## Layout steps at a lane -/

/-- A [1,1,128] row copied to every pixel reads, at pixel (h, w) and lane c, the row's lane c. -/
theorem spread_lane (x : FVec Ideal S1x1x128 .f32) (h w : Fin 64) (c : Fin 128) :
    broadcastTo S64x64x128 x broadcasts_S1x1x128_S64x64x128 (ix3 h w c) = x (ix3 0 0 c) :=
  broadcastTo_apply x _ _ _ fun a => match a with | ⟨0, _⟩ => rfl | ⟨1, _⟩ => rfl | ⟨2, _⟩ => rfl

/-- A [128] vector viewed as a [1,1,128] row reads, at (0, 0, c), the vector's entry c. -/
theorem lane_row (x : FVec Ideal S128 .f32) (c : Fin 128) :
    shapeCast S1x1x128 x shapeCasts_S128_S1x1x128 (ix3 0 0 c) = x (ix1 c) :=
  shapeCast_apply x _ _ _ (by
    rw [Shape.rowMajor_val_one, Shape.rowMajor_val_three]
    show c.val = (0 * 1 + 0) * 128 + c.val
    omega)

/-- A [1,128] matrix viewed as a [1,1,128] row reads, at (0, 0, c), the matrix's entry (0, c). -/
theorem mat_row (x : FVec Ideal S1x128 .f32) (c : Fin 128) :
    shapeCast S1x1x128 x shapeCasts_S1x128_S1x1x128 (ix3 0 0 c) = x (ix2 0 c) :=
  shapeCast_ab_1ab_apply x _ 0 0 c

/-- The [1,1,512] latent row viewed as a [1,512] matrix reads, at (0, k), the row's entry (0, 0, k). -/
theorem latent_mat (x : FVec Ideal S1x1x512 .f32) (k : Fin 512) :
    shapeCast S1x512 x shapeCasts_S1x1x512_S1x512 (ix2 0 k) = x (ix3 0 0 k) :=
  shapeCast_1ab_ab_apply x _ 0 k

/-- The reciprocal square root of a [128] vector reads lane by lane. -/
theorem rsqrt_lane (x : FVec Ideal S128 .f32) (c : Fin 128) : rsqrt x (ix1 c) = Ideal.rsqrt (x (ix1 c)) := rfl

/-! ## The dense product: which entries of the operands each term reads -/

/-- The latent operand's row coordinate is 0: it has one row. -/
theorem dense_lhs_0 (j : S1x128.Idx) (k : dot_S1x512_S512x128_S1x128_1_0_0_1_n_n.contr.Idx) :
    (dot_S1x512_S512x128_S1x128_1_0_0_1_n_n.lhsIdx j k 0 : ℕ) = 0 := by
  have h : (dot_S1x512_S512x128_S1x128_1_0_0_1_n_n.lhsIdx j k 0).val < 1 := (dot_S1x512_S512x128_S1x128_1_0_0_1_n_n.lhsIdx j k 0).isLt
  omega
/-- The latent operand's column coordinate is the summation position. -/
theorem dense_lhs_1 (j : S1x128.Idx) (k : dot_S1x512_S512x128_S1x128_1_0_0_1_n_n.contr.Idx) :
    (dot_S1x512_S512x128_S1x128_1_0_0_1_n_n.lhsIdx j k 1 : ℕ) = k ⟨0, by decide⟩ := by
  simp [DotDims.lhsIdx, dot_S1x512_S512x128_S1x128_1_0_0_1_n_n]; rfl
/-- The weight operand's row coordinate is the summation position. -/
theorem dense_rhs_0 (j : S1x128.Idx) (k : dot_S1x512_S512x128_S1x128_1_0_0_1_n_n.contr.Idx) :
    (dot_S1x512_S512x128_S1x128_1_0_0_1_n_n.rhsIdx j k 0 : ℕ) = k ⟨0, by decide⟩ := by
  simp [DotDims.rhsIdx, dot_S1x512_S512x128_S1x128_1_0_0_1_n_n]; rfl
/-- The weight operand's column coordinate is the result's column. -/
theorem dense_rhs_1 (j : S1x128.Idx) (k : dot_S1x512_S512x128_S1x128_1_0_0_1_n_n.contr.Idx) :
    (dot_S1x512_S512x128_S1x128_1_0_0_1_n_n.rhsIdx j k 1 : ℕ) = j 1 := by
  simp [DotDims.rhsIdx, dot_S1x512_S512x128_S1x128_1_0_0_1_n_n]; rfl

/-- The [1,512] × [512,128] product into zeros reads, at (0, c), the sum over k of row entry k times column c's entry k. -/
theorem dense_prod (a : FVec Ideal S1x512 .f32) (b : FVec Ideal S512x128 .f32) (c : Fin 128) :
    matmul dot_S1x512_S512x128_S1x128_1_0_0_1_n_n none a b (constant (F := Ideal) S1x128 .f32 0x00000000#32) (ix2 0 c)
      = ∑ k : Fin 512, a (ix2 0 k) * b (ix2 k c) := by
  refine (Ideal.matmul_constant_zero_apply dot_S1x512_S512x128_S1x128_1_0_0_1_n_n none a b (ix2 0 c)).trans ?_
  rw [← Equiv.sum_comp (contrEquiv1 dot_S1x512_S512x128_S1x128_1_0_0_1_n_n 512 rfl rfl).symm]
  refine Finset.sum_congr rfl fun k _ => ?_
  have hk := contrEquiv1_symm_val dot_S1x512_S512x128_S1x128_1_0_0_1_n_n 512 rfl rfl k
  congr 2
  · funext d
    refine Fin.ext ?_
    match d with
    | ⟨0, _⟩ => exact dense_lhs_0 _ _
    | ⟨1, _⟩ => exact (dense_lhs_1 _ _).trans hk
  · funext d
    refine Fin.ext ?_
    match d with
    | ⟨0, _⟩ => exact (dense_rhs_0 _ _).trans hk
    | ⟨1, _⟩ => exact dense_rhs_1 _ _

/-- The stored value at (0, h, w, c) from the lane's statistics, the dense operands and the activated pixel. -/
theorem pay1_apply (v26 : FVec Ideal S64x64x128 .f32) (v30 v33 v34 : FVec Ideal S128 .f32) (v47 : Vec Ideal S1x1x512 .f32)
    (v49 v51 : Vec Ideal S512x128 .f32) (v54 v58 : Vec Ideal S1x128 .f32) (h w : Fin 64) (c : Fin 128) :
    k0_pay1 v26 v30 v33 v34 v47 v49 v51 v54 v58 (ix4 0 h w c)
      = modulate (v30 (ix1 c)) (v33 (ix1 c) * v34 (ix1 c) - v30 (ix1 c) * v30 (ix1 c))
          (dense (fun k => v47 (ix3 0 0 k)) (fun k => v49 (ix2 k c)) (v54 (ix2 0 c)))
          (dense (fun k => v47 (ix3 0 0 k)) (fun k => v51 (ix2 k c)) (v58 (ix2 0 c))) (v26 (ix3 h w c)) := by
  unfold k0_pay1
  refine (shapeCast_abc_1abc_apply _ _ 0 h w c).trans ?_
  simp only [addf_apply, mulf_apply, subf_apply, spread_lane, lane_row, mat_row, rsqrt_lane, shapeCast_self, dense_prod,
    latent_mat, broadcast_apply]
  unfold modulate dense eps one
  rfl

/-! ## The whole block -/

/-- The zero offsets of a rank-4, rank-3 and rank-2 rectangle, as constant functions. -/
theorem zero4 : (![0, 0, 0, 0] : Fin 4 → Nat) = fun _ => 0 :=
  funext fun a => match a with | ⟨0, _⟩ => rfl | ⟨1, _⟩ => rfl | ⟨2, _⟩ => rfl | ⟨3, _⟩ => rfl
theorem zero3 : (![0, 0, 0] : Fin 3 → Nat) = fun _ => 0 :=
  funext fun a => match a with | ⟨0, _⟩ => rfl | ⟨1, _⟩ => rfl | ⟨2, _⟩ => rfl
theorem zero2 : (![0, 0] : Fin 2 → Nat) = fun _ => 0 :=
  funext fun a => match a with | ⟨0, _⟩ => rfl | ⟨1, _⟩ => rfl

/-- What the body leaves in the output block at (0, h, w, c): one channel of one sample, from the input blocks. -/
theorem out_apply (x0 : Vec Ideal S1x64x64x512 .f32) (x1 : Vec Ideal S1x64x64x1 .f32) (x2 : Vec Ideal S512x128 .f32)
    (x3 x4 : Vec Ideal S1x128 .f32) (x5 : Vec Ideal S1x1x512 .f32) (x6 : Vec Ideal S512x128 .f32) (x7 : Vec Ideal S1x128 .f32)
    (x8 : Vec Ideal S512x128 .f32) (x9 : Vec Ideal S1x128 .f32) (h w : Fin 64) (c : Fin 128) :
    out0_10 x0 x1 x2 x3 x4 x5 x6 x7 x8 x9 (ix4 0 h w c)
      = chan muK varK (fun h' w' k => x0 (ix4 0 h' w' k)) (fun h' w' => x1 (ix4 0 h' w' 0)) (fun k => x2 (ix2 k c))
          (x3 (ix2 0 c)) (x4 (ix2 0 c)) (fun k => x5 (ix3 0 0 k)) (fun k => x6 (ix2 k c)) (x7 (ix2 0 c))
          (fun k => x8 (ix2 k c)) (x9 (ix2 0 c)) h w := by
  unfold out0_10
  rw [View.canon_unit_zero zero4]
  simp only [View.ld_unit_zero (S := S1x64x64x512) zero4, View.ld_unit_zero (S := S1x64x64x1) zero4,
    View.ld_unit_zero (S := S512x128) zero2, View.ld_unit_zero (S := S1x128) zero2, View.ld_unit_zero (S := S1x1x512) zero3]
  rw [pay1_apply, pay3_apply, pay4_apply, pay5_apply]
  simp only [pay2_apply]
  unfold chan varK sqK
  rfl

end Cert.KernelIdeal.Pay

end
-- ==== Proof.KernelWindows.lean ====
import proofs.«178649_j29540785062600_1_alg».proof.Proof.Gen.KernelIdeal.Value
import proofs.«178649_j29540785062600_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

namespace Cert.KernelIdeal.Windows

open Cert.KernelIdeal Cert.KernelIdeal.Gen Cert.KernelIdeal.Value Idealize.ShloMosaic Idealize.ShloMosaic.TcCoe Idealize.SL.Sem
open Idealize.ShloMosaic.ValueIdx Cert.Spec

variable (m : (ℓ : Loc nD τ sig) → Buf (Elt Ideal) ℓ)

/-- Grid point `t` of the 8 × 4 grid is sample `t / 4` … -/
def bOf (t : Fin cfg0.N) : Fin 8 := ⟨t.val / 4, by have : t.val < 32 := t.isLt; omega⟩
/-- … and channel tile `t % 4`: lane `c'` of the tile is channel 128·(t % 4) + c'. -/
def chOf (t : Fin cfg0.N) (c' : Fin 128) : Fin 512 := ⟨128 * (t.val % 4) + c'.val, by have := c'.isLt; omega⟩

/-! ## The index maps over the grid

Each window's block index at grid point `t`, axis by axis: the sample axis carries `t / 4`, the channel axis
carries `t % 4`, every other axis carries `0`. -/

theorem idx0 : ∀ t : Fin cfg0.N, win0_0.index t (0 : Fin 4) = t.val / 4 ∧ win0_0.index t (1 : Fin 4) = 0
    ∧ win0_0.index t (2 : Fin 4) = 0 ∧ win0_0.index t (3 : Fin 4) = 0 :=
  (by decide +kernel : ∀ t : Fin grid0.N, _)

theorem idx1 : ∀ t : Fin cfg0.N, win0_1.index t (0 : Fin 4) = t.val / 4 ∧ win0_1.index t (1 : Fin 4) = 0
    ∧ win0_1.index t (2 : Fin 4) = 0 ∧ win0_1.index t (3 : Fin 4) = 0 :=
  (by decide +kernel : ∀ t : Fin grid0.N, _)

theorem idx2 : ∀ t : Fin cfg0.N, win0_2.index t (0 : Fin 2) = 0 ∧ win0_2.index t (1 : Fin 2) = t.val % 4 :=
  (by decide +kernel : ∀ t : Fin grid0.N, _)

theorem idx3 : ∀ t : Fin cfg0.N, win0_3.index t (0 : Fin 2) = 0 ∧ win0_3.index t (1 : Fin 2) = t.val % 4 :=
  (by decide +kernel : ∀ t : Fin grid0.N, _)

theorem idx4 : ∀ t : Fin cfg0.N, win0_4.index t (0 : Fin 2) = 0 ∧ win0_4.index t (1 : Fin 2) = t.val % 4 :=
  (by decide +kernel : ∀ t : Fin grid0.N, _)

theorem idx5 : ∀ t : Fin cfg0.N, win0_5.index t (0 : Fin 3) = t.val / 4 ∧ win0_5.index t (1 : Fin 3) = 0
    ∧ win0_5.index t (2 : Fin 3) = 0 :=
  (by decide +kernel : ∀ t : Fin grid0.N, _)

theorem idx6 : ∀ t : Fin cfg0.N, win0_6.index t (0 : Fin 2) = 0 ∧ win0_6.index t (1 : Fin 2) = t.val % 4 :=
  (by decide +kernel : ∀ t : Fin grid0.N, _)

theorem idx7 : ∀ t : Fin cfg0.N, win0_7.index t (0 : Fin 2) = 0 ∧ win0_7.index t (1 : Fin 2) = t.val % 4 :=
  (by decide +kernel : ∀ t : Fin grid0.N, _)

theorem idx8 : ∀ t : Fin cfg0.N, win0_8.index t (0 : Fin 2) = 0 ∧ win0_8.index t (1 : Fin 2) = t.val % 4 :=
  (by decide +kernel : ∀ t : Fin grid0.N, _)

theorem idx9 : ∀ t : Fin cfg0.N, win0_9.index t (0 : Fin 2) = 0 ∧ win0_9.index t (1 : Fin 2) = t.val % 4 :=
  (by decide +kernel : ∀ t : Fin grid0.N, _)

theorem idx10 : ∀ t : Fin cfg0.N, win0_10.index t (0 : Fin 4) = t.val / 4 ∧ win0_10.index t (1 : Fin 4) = 0
    ∧ win0_10.index t (2 : Fin 4) = 0 ∧ win0_10.index t (3 : Fin 4) = t.val % 4 :=
  (by decide +kernel : ∀ t : Fin grid0.N, _)

/-! ## Where a block's entry sits in its array

On every axis the array coordinate is (block index) × (block size) + (coordinate inside the block). -/

/-- Entry (0, h, w, k) of the block of `x` at point `t` is entry (sample, h, w, k) of `x`. -/
theorem emb0 (t : Fin cfg0.N) (h w : Fin 64) (k : Fin 512) :
    ((cfg0.win 0).blk t).view.emb (ix4 0 h w k) = ix4 (bOf t) h w k := by
  obtain ⟨e0, e1, e2, e3⟩ := idx0 t
  funext a; apply Fin.ext
  match a with
  | ⟨0, _⟩ => show win0_0.index t (0 : Fin 4) * 1 + 1 * 0 = t.val / 4; omega
  | ⟨1, _⟩ => show win0_0.index t (1 : Fin 4) * 64 + 1 * h.val = h.val; omega
  | ⟨2, _⟩ => show win0_0.index t (2 : Fin 4) * 64 + 1 * w.val = w.val; omega
  | ⟨3, _⟩ => show win0_0.index t (3 : Fin 4) * 512 + 1 * k.val = k.val; omega

/-- Entry (0, h, w, 0) of the noise block is entry (sample, h, w, 0) of the noise map. -/
theorem emb1 (t : Fin cfg0.N) (h w : Fin 64) :
    ((cfg0.win 1).blk t).view.emb (ix4 0 h w 0) = ix4 (bOf t) h w 0 := by
  obtain ⟨e0, e1, e2, e3⟩ := idx1 t
  funext a; apply Fin.ext
  match a with
  | ⟨0, _⟩ => show win0_1.index t (0 : Fin 4) * 1 + 1 * 0 = t.val / 4; omega
  | ⟨1, _⟩ => show win0_1.index t (1 : Fin 4) * 64 + 1 * h.val = h.val; omega
  | ⟨2, _⟩ => show win0_1.index t (2 : Fin 4) * 64 + 1 * w.val = w.val; omega
  | ⟨3, _⟩ => show win0_1.index t (3 : Fin 4) * 1 + 1 * 0 = 0; omega

/-- Entry (k, c') of a [512, 128] block cut from a [512, 512] matrix is entry (k, channel) of the matrix. -/
theorem emb2 (t : Fin cfg0.N) (k : Fin 512) (c' : Fin 128) :
    ((cfg0.win 2).blk t).view.emb (ix2 k c') = ix2 k (chOf t c') := by
  obtain ⟨e0, e1⟩ := idx2 t
  funext a; apply Fin.ext
  match a with
  | ⟨0, _⟩ => show win0_2.index t (0 : Fin 2) * 512 + 1 * k.val = k.val; omega
  | ⟨1, _⟩ => show win0_2.index t (1 : Fin 2) * 128 + 1 * c'.val = 128 * (t.val % 4) + c'.val; omega

/-- Entry (0, c') of a [1, 128] block cut from a [1, 512] row is entry (0, channel) of the row. -/
theorem emb3 (t : Fin cfg0.N) (c' : Fin 128) :
    ((cfg0.win 3).blk t).view.emb (ix2 0 c') = ix2 0 (chOf t c') := by
  obtain ⟨e0, e1⟩ := idx3 t
  funext a; apply Fin.ext
  match a with
  | ⟨0, _⟩ => show win0_3.index t (0 : Fin 2) * 1 + 1 * 0 = 0; omega
  | ⟨1, _⟩ => show win0_3.index t (1 : Fin 2) * 128 + 1 * c'.val = 128 * (t.val % 4) + c'.val; omega

theorem emb4 (t : Fin cfg0.N) (c' : Fin 128) :
    ((cfg0.win 4).blk t).view.emb (ix2 0 c') = ix2 0 (chOf t c') := by
  obtain ⟨e0, e1⟩ := idx4 t
  funext a; apply Fin.ext
  match a with
  | ⟨0, _⟩ => show win0_4.index t (0 : Fin 2) * 1 + 1 * 0 = 0; omega
  | ⟨1, _⟩ => show win0_4.index t (1 : Fin 2) * 128 + 1 * c'.val = 128 * (t.val % 4) + c'.val; omega

/-- Entry (0, 0, k) of the latents' block is entry (sample, 0, k) of the [8, 1, 512] array. -/
theorem emb5 (t : Fin cfg0.N) (k : Fin 512) :
    ((cfg0.win 5).blk t).view.emb (ix3 0 0 k) = ix3 (bOf t) 0 k := by
  obtain ⟨e0, e1, e2⟩ := idx5 t
  funext a; apply Fin.ext
  match a with
  | ⟨0, _⟩ => show win0_5.index t (0 : Fin 3) * 1 + 1 * 0 = t.val / 4; omega
  | ⟨1, _⟩ => show win0_5.index t (1 : Fin 3) * 1 + 1 * 0 = 0; omega
  | ⟨2, _⟩ => show win0_5.index t (2 : Fin 3) * 512 + 1 * k.val = k.val; omega

theorem emb6 (t : Fin cfg0.N) (k : Fin 512) (c' : Fin 128) :
    ((cfg0.win 6).blk t).view.emb (ix2 k c') = ix2 k (chOf t c') := by
  obtain ⟨e0, e1⟩ := idx6 t
  funext a; apply Fin.ext
  match a with
  | ⟨0, _⟩ => show win0_6.index t (0 : Fin 2) * 512 + 1 * k.val = k.val; omega
  | ⟨1, _⟩ => show win0_6.index t (1 : Fin 2) * 128 + 1 * c'.val = 128 * (t.val % 4) + c'.val; omega

theorem emb7 (t : Fin cfg0.N) (c' : Fin 128) :
    ((cfg0.win 7).blk t).view.emb (ix2 0 c') = ix2 0 (chOf t c') := by
  obtain ⟨e0, e1⟩ := idx7 t
  funext a; apply Fin.ext
  match a with
  | ⟨0, _⟩ => show win0_7.index t (0 : Fin 2) * 1 + 1 * 0 = 0; omega
  | ⟨1, _⟩ => show win0_7.index t (1 : Fin 2) * 128 + 1 * c'.val = 128 * (t.val % 4) + c'.val; omega

theorem emb8 (t : Fin cfg0.N) (k : Fin 512) (c' : Fin 128) :
    ((cfg0.win 8).blk t).view.emb (ix2 k c') = ix2 k (chOf t c') := by
  obtain ⟨e0, e1⟩ := idx8 t
  funext a; apply Fin.ext
  match a with
  | ⟨0, _⟩ => show win0_8.index t (0 : Fin 2) * 512 + 1 * k.val = k.val; omega
  | ⟨1, _⟩ => show win0_8.index t (1 : Fin 2) * 128 + 1 * c'.val = 128 * (t.val % 4) + c'.val; omega

theorem emb9 (t : Fin cfg0.N) (c' : Fin 128) :
    ((cfg0.win 9).blk t).view.emb (ix2 0 c') = ix2 0 (chOf t c') := by
  obtain ⟨e0, e1⟩ := idx9 t
  funext a; apply Fin.ext
  match a with
  | ⟨0, _⟩ => show win0_9.index t (0 : Fin 2) * 1 + 1 * 0 = 0; omega
  | ⟨1, _⟩ => show win0_9.index t (1 : Fin 2) * 128 + 1 * c'.val = 128 * (t.val % 4) + c'.val; omega

/-- Entry (0, h, w, c') of the output block at point `t` is entry (sample, h, w, channel) of the result array. -/
theorem out_emb (t : Fin cfg0.N) (h w : Fin 64) (c' : Fin 128) :
    ((cfg0.win 10).blk t).view.emb (ix4 0 h w c') = ix4 (bOf t) h w (chOf t c') := by
  obtain ⟨e0, e1, e2, e3⟩ := idx10 t
  funext a; apply Fin.ext
  match a with
  | ⟨0, _⟩ => show win0_10.index t (0 : Fin 4) * 1 + 1 * 0 = t.val / 4; omega
  | ⟨1, _⟩ => show win0_10.index t (1 : Fin 4) * 64 + 1 * h.val = h.val; omega
  | ⟨2, _⟩ => show win0_10.index t (2 : Fin 4) * 64 + 1 * w.val = w.val; omega
  | ⟨3, _⟩ => show win0_10.index t (3 : Fin 4) * 128 + 1 * c'.val = 128 * (t.val % 4) + c'.val; omega

/-! ## The arrays written before the grid runs, read at an index -/

/-- The [1, 512] view of the noise weight holds, at (0, j), entry (0, 0, 0, j) of the [1, 1, 1, 512] argument. -/
theorem v0_apply (c : Dev nD) (j : Fin 512) :
    V m c main_v0 (ix2 0 j) = m ((c : Thread nD τ).loc main_arg4) (ix4 0 0 0 j) := by
  have e : (V m c main_v0 : S1x512.Idx → EReal) = shapeCast S1x512 (m ((c : Thread nD τ).loc main_arg4)) shapeCasts_S1x1x1x512_S1x512 := by
    dsimp only [Gen.V, Gen.hostOps0]; after_results; rfl
  rw [e]
  refine shapeCast_apply _ _ (ix2 0 j) (ix4 0 0 0 j) ?_
  rw [Shape.rowMajor_val_four, Shape.rowMajor_val_two]
  show ((0 * 1 + 0) * 1 + 0) * 512 + j.val = 0 * 512 + j.val
  omega

/-- The [1, 512] view of the bias likewise. -/
theorem v1_apply (c : Dev nD) (j : Fin 512) :
    V m c main_v1 (ix2 0 j) = m ((c : Thread nD τ).loc main_arg5) (ix4 0 0 0 j) := by
  have e : (V m c main_v1 : S1x512.Idx → EReal) = shapeCast S1x512 (m ((c : Thread nD τ).loc main_arg5)) shapeCasts_S1x1x1x512_S1x512 := by
    dsimp only [Gen.V, Gen.hostOps0]; after_results; rfl
  rw [e]
  refine shapeCast_apply _ _ (ix2 0 j) (ix4 0 0 0 j) ?_
  rw [Shape.rowMajor_val_four, Shape.rowMajor_val_two]
  show ((0 * 1 + 0) * 1 + 0) * 512 + j.val = 0 * 512 + j.val
  omega

/-- The [8, 1, 512] view of the latents holds, at (b, 0, k), entry (b, k) of the [8, 512] argument. -/
theorem v2_apply (c : Dev nD) (b : Fin 8) (k : Fin 512) :
    V m c main_v2 (ix3 b 0 k) = m ((c : Thread nD τ).loc main_arg1) (ix2 b k) := by
  have e : (V m c main_v2 : S8x1x512.Idx → EReal) = shapeCast S8x1x512 (m ((c : Thread nD τ).loc main_arg1)) shapeCasts_S8x512_S8x1x512 := by
    dsimp only [Gen.V, Gen.hostOps0]; after_results; rfl
  rw [e]
  refine shapeCast_apply _ _ (ix3 b 0 k) (ix2 b k) ?_
  rw [Shape.rowMajor_val_three, Shape.rowMajor_val_two]
  show b.val * 512 + k.val = (b.val * 1 + 0) * 512 + k.val
  omega

/-- The first half of the dense weight holds, at (k, j), entry (k, j) of the [512, 1024] argument. -/
theorem v3_apply (c : Dev nD) (k j : Fin 512) :
    V m c main_v3 (ix2 k j) = m ((c : Thread nD τ).loc main_arg6) (ix2 k (lo j)) := by
  have e : (V m c main_v3 : S512x512.Idx → EReal) = extractStridedSlice S512x512 ![0, 0] (m ((c : Thread nD τ).loc main_arg6)) slices_S512x1024_S512x512_0_0 := by
    dsimp only [Gen.V, Gen.hostOps0]; after_results
  rw [e]
  refine extractStridedSlice_apply _ _ _ (ix2 k j) (ix2 k (lo j)) fun a => ?_
  match a with
  | ⟨0, _⟩ => show k.val = 0 + k.val; omega
  | ⟨1, _⟩ => show j.val = 0 + j.val; omega

/-- The second half of the dense weight holds, at (k, j), entry (k, 512 + j) of the argument. -/
theorem v4_apply (c : Dev nD) (k j : Fin 512) :
    V m c main_v4 (ix2 k j) = m ((c : Thread nD τ).loc main_arg6) (ix2 k (hi j)) := by
  have e : (V m c main_v4 : S512x512.Idx → EReal) = extractStridedSlice S512x512 ![0, 512] (m ((c : Thread nD τ).loc main_arg6)) slices_S512x1024_S512x512_0_512 := by
    dsimp only [Gen.V, Gen.hostOps0]; after_results
  rw [e]
  refine extractStridedSlice_apply _ _ _ (ix2 k j) (ix2 k (hi j)) fun a => ?_
  match a with
  | ⟨0, _⟩ => show k.val = 0 + k.val; omega
  | ⟨1, _⟩ => show 512 + j.val = 512 + j.val; rfl

/-- The [1, 512] view of the dense bias's first half holds, at (0, j), entry j of the [1024] argument. -/
theorem v6_apply (c : Dev nD) (j : Fin 512) :
    V m c main_v6 (ix2 0 j) = m ((c : Thread nD τ).loc main_arg7) (ix1 (lo j)) := by
  have e : (V m c main_v6 : S1x512.Idx → EReal) = shapeCast S1x512 (extractStridedSlice S512 ![0] (m ((c : Thread nD τ).loc main_arg7)) slices_S1024_S512_0) shapeCasts_S512_S1x512 := by
    dsimp only [Gen.V, Gen.hostOps0]; after_results; rfl
  rw [e]
  refine (shapeCast_apply _ _ (ix2 0 j) (ix1 j) ?_).trans ?_
  · rw [Shape.rowMajor_val_one, Shape.rowMajor_val_two]
    show j.val = 0 * 512 + j.val
    omega
  · refine extractStridedSlice_apply _ _ _ (ix1 j) (ix1 (lo j)) fun a => ?_
    match a with
    | ⟨0, _⟩ => show j.val = 0 + j.val; omega

/-- The [1, 512] view of the dense bias's second half holds, at (0, j), entry 512 + j of the argument. -/
theorem v8_apply (c : Dev nD) (j : Fin 512) :
    V m c main_v8 (ix2 0 j) = m ((c : Thread nD τ).loc main_arg7) (ix1 (hi j)) := by
  have e : (V m c main_v8 : S1x512.Idx → EReal) = shapeCast S1x512 (extractStridedSlice S512 ![512] (m ((c : Thread nD τ).loc main_arg7)) slices_S1024_S512_512) shapeCasts_S512_S1x512 := by
    dsimp only [Gen.V, Gen.hostOps0]; after_results; rfl
  rw [e]
  refine (shapeCast_apply _ _ (ix2 0 j) (ix1 j) ?_).trans ?_
  · rw [Shape.rowMajor_val_one, Shape.rowMajor_val_two]
    show j.val = 0 * 512 + j.val
    omega
  · refine extractStridedSlice_apply _ _ _ (ix1 j) (ix1 (hi j)) fun a => ?_
    match a with
    | ⟨0, _⟩ => show 512 + j.val = 512 + j.val; rfl

/-! ## The windows' blocks -/

/-- The block of `x` at point `t` is the sample's whole [64, 64, 512] slab. -/
theorem blk0_apply (c : Dev nD) (t : Fin cfg0.N) (h w : Fin 64) (k : Fin 512) :
    iblk m c 0 t (ix4 0 h w k) = m ((c : Thread nD τ).loc main_arg0) (ix4 (bOf t) h w k) := by
  show V m c main_arg0 (((cfg0.win 0).blk t).view.emb (ix4 0 h w k)) = _
  rw [V_main_arg0, emb0]

/-- The block of the noise map is the sample's [64, 64, 1] slab. -/
theorem blk1_apply (c : Dev nD) (t : Fin cfg0.N) (h w : Fin 64) :
    iblk m c 1 t (ix4 0 h w 0) = m ((c : Thread nD τ).loc main_arg2) (ix4 (bOf t) h w 0) := by
  show V m c main_arg2 (((cfg0.win 1).blk t).view.emb (ix4 0 h w 0)) = _
  rw [V_main_arg2, emb1]

/-- The block of the convolution weight is the tile's 128 columns. -/
theorem blk2_apply (c : Dev nD) (t : Fin cfg0.N) (k : Fin 512) (c' : Fin 128) :
    iblk m c 2 t (ix2 k c') = m ((c : Thread nD τ).loc main_arg3) (ix2 k (chOf t c')) := by
  show V m c main_arg3 (((cfg0.win 2).blk t).view.emb (ix2 k c')) = _
  rw [V_main_arg3, emb2]

/-- The block of the (reshaped) noise weight is the tile's 128 channels of the [1, 1, 1, 512] argument. -/
theorem blk3_apply (c : Dev nD) (t : Fin cfg0.N) (c' : Fin 128) :
    iblk m c 3 t (ix2 0 c') = m ((c : Thread nD τ).loc main_arg4) (ix4 0 0 0 (chOf t c')) := by
  show V m c main_v0 (((cfg0.win 3).blk t).view.emb (ix2 0 c')) = _
  rw [emb3]; exact v0_apply m c (chOf t c')

/-- The block of the (reshaped) bias likewise. -/
theorem blk4_apply (c : Dev nD) (t : Fin cfg0.N) (c' : Fin 128) :
    iblk m c 4 t (ix2 0 c') = m ((c : Thread nD τ).loc main_arg5) (ix4 0 0 0 (chOf t c')) := by
  show V m c main_v1 (((cfg0.win 4).blk t).view.emb (ix2 0 c')) = _
  rw [emb4]; exact v1_apply m c (chOf t c')

/-- The block of the (reshaped) latents is the sample's row. -/
theorem blk5_apply (c : Dev nD) (t : Fin cfg0.N) (k : Fin 512) :
    iblk m c 5 t (ix3 0 0 k) = m ((c : Thread nD τ).loc main_arg1) (ix2 (bOf t) k) := by
  show V m c main_v2 (((cfg0.win 5).blk t).view.emb (ix3 0 0 k)) = _
  rw [emb5]; exact v2_apply m c (bOf t) k

/-- The block of the dense weight's first half (columns 0 … 511) is the tile's columns of the γ half. -/
theorem blk6_apply (c : Dev nD) (t : Fin cfg0.N) (k : Fin 512) (c' : Fin 128) :
    iblk m c 6 t (ix2 k c') = m ((c : Thread nD τ).loc main_arg6) (ix2 k (lo (chOf t c'))) := by
  show V m c main_v3 (((cfg0.win 6).blk t).view.emb (ix2 k c')) = _
  rw [emb6]; exact v3_apply m c k (chOf t c')

/-- The block of the dense bias's first half. -/
theorem blk7_apply (c : Dev nD) (t : Fin cfg0.N) (c' : Fin 128) :
    iblk m c 7 t (ix2 0 c') = m ((c : Thread nD τ).loc main_arg7) (ix1 (lo (chOf t c'))) := by
  show V m c main_v6 (((cfg0.win 7).blk t).view.emb (ix2 0 c')) = _
  rw [emb7]; exact v6_apply m c (chOf t c')

/-- The block of the dense weight's second half (columns 512 … 1023): the β half. -/
theorem blk8_apply (c : Dev nD) (t : Fin cfg0.N) (k : Fin 512) (c' : Fin 128) :
    iblk m c 8 t (ix2 k c') = m ((c : Thread nD τ).loc main_arg6) (ix2 k (hi (chOf t c'))) := by
  show V m c main_v4 (((cfg0.win 8).blk t).view.emb (ix2 k c')) = _
  rw [emb8]; exact v4_apply m c k (chOf t c')

/-- The block of the dense bias's second half. -/
theorem blk9_apply (c : Dev nD) (t : Fin cfg0.N) (c' : Fin 128) :
    iblk m c 9 t (ix2 0 c') = m ((c : Thread nD τ).loc main_arg7) (ix1 (hi (chOf t c'))) := by
  show V m c main_v8 (((cfg0.win 9).blk t).view.emb (ix2 0 c')) = _
  rw [emb9]; exact v8_apply m c (chOf t c')

end Cert.KernelIdeal.Windows

end
-- ==== Proof.KernelBlocks.lean ====
import proofs.«178649_j29540785062600_1_alg».proof.Proof.Gen.KernelIdeal.Value
import proofs.«178649_j29540785062600_1_alg».proof.Proof.KernelPay
import proofs.«178649_j29540785062600_1_alg».proof.Proof.KernelWindows
import proofs.«178649_j29540785062600_1_alg».proof.Proof.Spec
import Idealize.ShloMosaic.Lib.ValueIdx
import Idealize.ShloMosaic.Lib.ValueLayout
import Idealize.ShloMosaic.Lib.Pipeline.Value
import Idealize.ShloMosaic.Lib.StableHlo.Run

noncomputable section

open scoped BigOperators

namespace Cert.KernelIdeal.Blocks

open Cert.KernelIdeal Cert.KernelIdeal.Gen Cert.KernelIdeal.Value Idealize.ShloMosaic Idealize.ShloMosaic.TcCoe Idealize.SL.Sem
open Idealize.ShloMosaic.ValueIdx Cert.Spec Cert.KernelIdeal.Windows Cert.KernelIdeal.Pay
open Idealize.ShloMosaic.Pipeline (Dat)

variable (m : (ℓ : Loc nD τ sig) → Buf (Elt Ideal) ℓ) (ρ : Dev nD → PrngReg)

/-- An index of a [1, 64, 64, 128] block has first coordinate 0. -/
theorem blkIdx_eq (y : S1x64x64x128.Idx) : y = ix4 0 (y 1) (y 2) (y 3) := by
  funext a
  match a with
  | ⟨0, _⟩ => exact Fin.ext (by show (y 0).val = 0; have h : (y 0).val < 1 := (y 0).isLt; omega)
  | ⟨1, _⟩ => rfl
  | ⟨2, _⟩ => rfl
  | ⟨3, _⟩ => rfl

/-- What grid point `t` = (sample, channel tile) writes back is block `t` of `Gk` of the argument arrays. -/
theorem flushed_eq (c : Dev nD) (t : Fin cfg0.N) :
    (dats m 0 c).flushed 10 t
      = ((cfg0.win 10).blk t).view.read (Elt Ideal) (Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) := by
  rw [Value.flushed10]
  funext y
  obtain ⟨h, w, c', rfl⟩ : ∃ (h w : Fin 64) (c' : Fin 128), y = (ix4 0 h w c' : S1x64x64x128.Idx) := ⟨y 1, y 2, y 3, blkIdx_eq y⟩
  show out0_10 (iblk m c 0 t) (iblk m c 1 t) (iblk m c 2 t) (iblk m c 3 t) (iblk m c 4 t) (iblk m c 5 t) (iblk m c 6 t) (iblk m c 7 t) (iblk m c 8 t) (iblk m c 9 t) (ix4 0 h w c') = Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (((cfg0.win 10).blk t).view.emb (ix4 0 h w c'))
  rw [Windows.out_emb, Spec.Gk_ix4]
  refine (Pay.out_apply (iblk m c 0 t) (iblk m c 1 t) (iblk m c 2 t) (iblk m c 3 t) (iblk m c 4 t) (iblk m c 5 t) (iblk m c 6 t) (iblk m c 7 t) (iblk m c 8 t) (iblk m c 9 t) h w c').trans ?_
  unfold Spec.GAt
  simp only [Windows.blk0_apply, Windows.blk1_apply, Windows.blk2_apply, Windows.blk3_apply, Windows.blk4_apply, Windows.blk5_apply, Windows.blk6_apply, Windows.blk7_apply, Windows.blk8_apply, Windows.blk9_apply]

/-- At grid point `t` the result window's block index is (t / 4, 0, 0, t % 4). -/
theorem idx10 : ∀ t : Fin cfg0.N, win0_10.index t (0 : Fin 4) = t.val / 4 ∧ win0_10.index t (1 : Fin 4) = 0
    ∧ win0_10.index t (2 : Fin 4) = 0 ∧ win0_10.index t (3 : Fin 4) = t.val % 4 :=
  (by decide +kernel : ∀ t : Fin grid0.N, _)

/-- An index of the result array is in point `t`'s block iff each coordinate is in the block's range on its axis. -/
theorem mem_blk (t : Fin cfg0.N) (i : S8x64x64x512.Idx) :
    i ∈ ((cfg0.win 10).blk t).view.set ↔ ∀ a : Fin 4, win0_10.index t a * S1x64x64x128.size a ≤ (i a).val ∧ (i a).val < win0_10.index t a * S1x64x64x128.size a + S1x64x64x128.size a := by
  show i ∈ ((View.whole main_v9).slice (win0_10.rect t)).set ↔ _
  rw [View.set_slice_whole, Rect.mem_set_unit]
  exact Iff.rfl

/-- Every index (b, h, w, ch) of the result array lies in the block of grid point 4·b + ch / 128. -/
theorem cover (i : S8x64x64x512.Idx) :
    ∃ t : Fin cfg0.N, (cfg0.win 10).flush t = true ∧ i ∈ ((cfg0.win 10).blk t).view.set := by
  have h0 : (i 0).val < 8 := (i 0).isLt
  have h1 : (i 1).val < 64 := (i 1).isLt
  have h2 : (i 2).val < 64 := (i 2).isLt
  have h3 : (i 3).val < 512 := (i 3).isLt
  have hN : cfg0.N = 32 := by decide
  obtain ⟨t, ht⟩ : ∃ t : Fin cfg0.N, t.val = 4 * (i 0).val + (i 3).val / 128 :=
    ⟨⟨4 * (i 0).val + (i 3).val / 128, by rw [hN]; omega⟩, rfl⟩
  refine ⟨t, flush0_10 t, ?_⟩
  rw [mem_blk]
  obtain ⟨e0, e1, e2, e3⟩ := idx10 t
  intro a
  match a with
  | ⟨0, _⟩ => show win0_10.index t (0 : Fin 4) * 1 ≤ (i 0).val ∧ (i 0).val < win0_10.index t (0 : Fin 4) * 1 + 1; omega
  | ⟨1, _⟩ => show win0_10.index t (1 : Fin 4) * 64 ≤ (i 1).val ∧ (i 1).val < win0_10.index t (1 : Fin 4) * 64 + 64; omega
  | ⟨2, _⟩ => show win0_10.index t (2 : Fin 4) * 64 ≤ (i 2).val ∧ (i 2).val < win0_10.index t (2 : Fin 4) * 64 + 64; omega
  | ⟨3, _⟩ => show win0_10.index t (3 : Fin 4) * 128 ≤ (i 3).val ∧ (i 3).val < win0_10.index t (3 : Fin 4) * 128 + 128; omega

/-- The 32 blocks tile the result, so after the run the result array is `Gk` of the argument arrays. -/
theorem final (c : Dev nD) : (dats m 0 c).arrAt 10 cfg0.N = Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  exact (dats m 0 c).arrAt_eq_of_cover 10 (Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))) (fun t _ => flushed_eq m c t) cover

/-- The kernel's run with its result named. -/
theorem run : θ_run defs (onTc (τ := τ) (main (F := Ideal))) ⟨m, fun _ => 0, ρ⟩ fun r => ∀ c : Dev nD,
      r.2.mem ((c : Thread nD τ).loc main_v9) = Gk (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (run_blocks m ρ)

end Cert.KernelIdeal.Blocks

end
-- ==== Proof.lean ====
/-
  The StyleGAN-style epilogue (1×1 convolution, per-pixel noise, bias, leaky rectifier, instance normalisation over the
  64 × 64 pixels, style modulation by a dense layer of the latents) computed by one kernel over a grid of
  (sample, 128-channel tile) against the plain array program.

  At the extended reals both programs compute, for sample b, pixel (h, w) and channel c,
      ((Y − μ)·rsqrt(σ² + ε))·(1 + γ) + β,      Y = leaky(∑ₖ x·W + nw·noise + bias),
  and differ only in μ and σ²: the kernel scales the pixel sums by 2⁻¹² and takes σ² = E[Y²] − μ², the reference
  divides by 4096 and takes σ² = E[(Y − μ)²].  2⁻¹² is exactly 1/4096, and the two variances agree when Y is finite,
  which the precondition gives (every entry of x, W, nw, noise and bias is a real number, so every Y is).
  Spec.lean states the common function, SpecLaw.lean the agreement; KernelPay.lean and KernelBlocks.lean read the
  kernel's blocks as that function, RefRun.lean and RefRead.lean the reference's term; Finite.lean opens the
  precondition.  The idealization rewrote nothing, so `preserves` is `True`.
-/
import proofs.«178649_j29540785062600_1_alg».proof.Defs
import proofs.«178649_j29540785062600_1_alg».proof.Proof.Gen.Kernel
import proofs.«178649_j29540785062600_1_alg».proof.Proof.Gen.Kernel.Skeleton
import proofs.«178649_j29540785062600_1_alg».proof.Proof.Gen.Kernel.Launch
import proofs.«178649_j29540785062600_1_alg».proof.Proof.Gen.Kernel.Points
import proofs.«178649_j29540785062600_1_alg».proof.Proof.Gen.Kernel.Frame
import proofs.«178649_j29540785062600_1_alg».proof.Proof.Gen.KernelIdeal
import proofs.«178649_j29540785062600_1_alg».proof.Proof.Gen.KernelIdeal.Skeleton
import proofs.«178649_j29540785062600_1_alg».proof.Proof.Gen.KernelIdeal.Launch
import proofs.«178649_j29540785062600_1_alg».proof.Proof.Gen.KernelIdeal.Points
import proofs.«178649_j29540785062600_1_alg».proof.Proof.Gen.KernelIdeal.Frame
import proofs.«178649_j29540785062600_1_alg».proof.Proof.Gen.ReferenceIdeal
import proofs.«178649_j29540785062600_1_alg».proof.Proof.Gen.Pre_finite_inputs
import Idealize.ShloMosaic.Adequacy
import Idealize.ShloMosaic.Init

import proofs.«178649_j29540785062600_1_alg».proof.Proof.SpecLaw
import proofs.«178649_j29540785062600_1_alg».proof.Proof.Finite
import proofs.«178649_j29540785062600_1_alg».proof.Proof.RefRun
import proofs.«178649_j29540785062600_1_alg».proof.Proof.RefRead
import proofs.«178649_j29540785062600_1_alg».proof.Proof.KernelBlocks

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Run.run (F := Ideal) m ρ)

/-- Both runs end at one array: the kernel's at `Gk` of the arguments, the reference's at `Gr` of the same arguments, and
    the two are equal because the precondition makes the activation finite. -/
theorem algebraic : Cert.algebraic_KernelIdeal_ReferenceIdeal := by
  intro m ρ m' ρ' hpre hagree
  refine ⟨_, Cert.KernelIdeal.Blocks.run m ρ, ?_⟩
  refine (θ_run Cert.ReferenceIdeal.defs _ _).mono (fun _ h c => ⟨(h c).1.trans ?_, (h c).2⟩)
    (Cert.ReferenceIdeal.Run.run (F := Ideal) m' ρ')
  obtain ⟨h0, h1, h2, h3, h4, h5, h6, h7⟩ := hagree c
  rw [h0, h1, h2, h3, h4, h5, h6, h7, Cert.ReferenceIdeal.RefRead.out_eq_Gr]
  obtain ⟨r0, r2, r3, r4, r5⟩ := Cert.Finite.real_of_pre _ _ _ _ _ _ _ _ (hpre c)
  exact (Cert.Spec.Gk_eq_Gr _ _ _ _ _ _ _ _ r0 r2 r3 r4 r5).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
